-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S32x128x128x32 : Shape := ⟨4, ![32, 128, 128, 32]⟩
abbrev S288x4 : Shape := ⟨2, ![288, 4]⟩
abbrev S4 : Shape := ⟨1, ![4]⟩
abbrev S128x1 : Shape := ⟨2, ![128, 1]⟩
abbrev S1 : Shape := ⟨1, ![1]⟩
abbrev S8192 : Shape := ⟨1, ![8192]⟩
abbrev S32x8192 : Shape := ⟨2, ![32, 8192]⟩
abbrev S32 : Shape := ⟨1, ![32]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S32x128x128x32 : S_.BroadcastsInDim S32x128x128x32 (![] : Fin 0 → Fin S32x128x128x32.rank)
  reducesTo_S32x128x128x32_S_d0_1_2_3 : S32x128x128x32.ReducesTo [0, 1, 2, 3] S_
  bcast_S_S288x4 : S_.BroadcastsInDim S288x4 (![] : Fin 0 → Fin S288x4.rank)
  reducesTo_S288x4_S_d0_1 : S288x4.ReducesTo [0, 1] S_
  bcast_S_S4 : S_.BroadcastsInDim S4 (![] : Fin 0 → Fin S4.rank)
  reducesTo_S4_S_d0 : S4.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : IVec S8192 32) (main_arg8 : IVec S8192 32) (main_v28 : IVec S_ 1) (main_v33 : IVec S8192 1) : IVec S_ 1 :=
  let main_c_12 : IVec S_ 1 := constantI S_ 1 1#1
  let main_v34 : IVec S_ 1 := (fun x v => Host.reduce IntOp.andi x v reducesTo_S8192_S_d0 h_S_) main_v33 main_c_12
  let main_v35 : IVec S_ 1 := andi main_v28 main_v34
  let main_c_13 : IVec S_ 32 := constantI S_ 32 0#32
  let main_v36 : IVec S8192 32 := broadcastInDim S8192 ![] bcast_S_S8192 main_c_13
  let main_v37 : IVec S8192 1 := cmpi .sge main_arg7 main_v36
  let main_c_14 : IVec S_ 32 := constantI S_ 32 128#32
  let main_v38 : IVec S8192 32 := broadcastInDim S8192 ![] bcast_S_S8192 main_c_14
  let main_v39 : IVec S8192 1 := cmpi .slt main_arg7 main_v38
  let main_v40 : IVec S8192 1 := andi main_v37 main_v39
  let main_c_15 : IVec S_ 1 := constantI S_ 1 1#1
  let main_v41 : IVec S_ 1 := (fun x v => Host.reduce IntOp.andi x v reducesTo_S8192_S_d0 h_S_) main_v40 main_c_15
  let main_v42 : IVec S_ 1 := andi main_v35 main_v41
  let main_c_16 : IVec S_ 32 := constantI S_ 32 0#32
  let main_v43 : IVec S8192 32 := broadcastInDim S8192 ![] bcast_S_S8192 main_c_16
  let main_v44 : IVec S8192 1 := cmpi .sge main_arg8 main_v43
  let main_c_17 : IVec S_ 32 := constantI S_ 32 4#32
  let main_v45 : IVec S8192 32 := broadcastInDim S8192 ![] bcast_S_S8192 main_c_17
  let main_v46 : IVec S8192 1 := cmpi .slt main_arg8 main_v45
  let main_v47 : IVec S8192 1 := andi main_v44 main_v46
  let main_c_18 : IVec S_ 1 := constantI S_ 1 1#1
  let main_v48 : IVec S_ 1 := (fun x v => Host.reduce IntOp.andi x v reducesTo_S8192_S_d0 h_S_) main_v47 main_c_18
  let main_v49 : IVec S_ 1 := andi main_v42 main_v48
  main_v49

def fn_part1 {F : FTy → Type} [FloatOps F] (main_arg4 : FVec F S128x1 .f32) (main_arg5 : FVec F S1 .f32) (main_arg6 : IVec S8192 32) (main_arg7 : IVec S8192 32) (main_arg8 : IVec S8192 32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S8192 32 := broadcastInDim S8192 ![] bcast_S_S8192 main_c_10
  let main_v30 : IVec S8192 1 := cmpi .sge main_arg6 main_v29
  let main_c_11 : IVec S_ 32 := constantI S_ 32 128#32
  let main_v31 : IVec S8192 32 := broadcastInDim S8192 ![] bcast_S_S8192 main_c_11
  let main_v32 : IVec S8192 1 := cmpi .slt main_arg6 main_v31
  let main_v33 : IVec S8192 1 := andi main_v30 main_v32
  fn_part2 (F := F) main_arg7 main_arg8 main_v28 main_v33

def fn {F : FTy → Type} [FloatOps F] (main_arg0 : FVec F S32x128x128 .f32) (main_arg1 : FVec F S32x128x128x32 .f32) (main_arg2 : FVec F S288x4 .f32) (main_arg3 : FVec F S4 .f32) (main_arg4 : FVec F S128x1 .f32) (main_arg5 : FVec F S1 .f32) (main_arg6 : IVec S8192 32) (main_arg7 : IVec S8192 32) (main_arg8 : IVec S8192 32) (main_arg9 : IVec S32x8192 1) (main_arg10 : IVec S32 1) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S32x128x128x32 .f32 := Host.absf main_arg1
  let main_cst_0 : FVec F S_ .f32 := constant S_ .f32 0x7F800000#32
  let main_v5 : FVec F S32x128x128x32 .f32 := broadcastInDim S32x128x128x32 ![] bcast_S_S32x128x128x32 main_cst_0
  let main_v6 : IVec S32x128x128x32 1 := cmpf .olt main_v4 main_v5
  let main_c_1 : IVec S_ 1 := constantI S_ 1 1#1
  let main_v7 : IVec S_ 1 := (fun x v => Host.reduce IntOp.andi x v reducesTo_S32x128x128x32_S_d0_1_2_3 h_S_) main_v6 main_c_1
  let main_v8 : IVec S_ 1 := andi main_v3 main_v7
  let main_v9 : FVec F S288x4 .f32 := Host.absf main_arg2
  let main_cst_2 : FVec F S_ .f32 := constant S_ .f32 0x7F800000#32
  let main_v10 : FVec F S288x4 .f32 := broadcastInDim S288x4 ![] bcast_S_S288x4 main_cst_2
  let main_v11 : IVec S288x4 1 := cmpf .olt main_v9 main_v10
  let main_c_3 : IVec S_ 1 := constantI S_ 1 1#1
  let main_v12 : IVec S_ 1 := (fun x v => Host.reduce IntOp.andi x v reducesTo_S288x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_v13 main_v16
-- ==== Kernel.lean ====
abbrev S32x128x128 : Shape := ⟨3, ![32, 128, 128]⟩
abbrev S32x128x128x32 : Shape := ⟨4, ![32, 128, 128, 32]⟩
abbrev S288x4 : Shape := ⟨2, ![288, 4]⟩
abbrev S4 : Shape := ⟨1, ![4]⟩
abbrev S128x1 : Shape := ⟨2, ![128, 1]⟩
abbrev S1 : Shape := ⟨1, ![1]⟩
abbrev S8192 : Shape := ⟨1, ![8192]⟩
abbrev S32x8192 : Shape := ⟨2, ![32, 8192]⟩
abbrev S32 : Shape := ⟨1, ![32]⟩
abbrev S128x4 : Shape := ⟨2, ![128, 4]⟩
abbrev S32x4 : Shape := ⟨2, ![32, 4]⟩
abbrev S128x128 : Shape := ⟨2, ![128, 128]⟩
abbrev S_ : Shape := ⟨0, ![]⟩
abbrev S128x1x128x1 : Shape := ⟨4, ![128, 1, 128, 1]⟩
abbrev S1x32x1x4 : Shape := ⟨4, ![1, 32, 1, 4]⟩
abbrev S128x32x128x4 : Shape := ⟨4, ![128, 32, 128, 4]⟩
abbrev S4096x512 : Shape := ⟨2, ![4096, 512]⟩
abbrev S32x128x4096 : Shape := ⟨3, ![32, 128, 4096]⟩
abbrev S32x64x128 : Shape := ⟨3, ![32, 64, 128]⟩
abbrev S1x128x128 : Shape := ⟨3, ![1, 128, 128]⟩
abbrev S1x128x4096 : Shape := ⟨3, ![1, 128, 4096]⟩
abbrev S1024 : Shape := ⟨1, ![1024]⟩
abbrev S1x8x128 : Shape := ⟨3, ![1, 8, 128]⟩
abbrev S128x512 : Shape := ⟨2, ![128, 512]⟩
abbrev S128x4096 : Shape := ⟨2, ![128, 4096]⟩
abbrev S1024x128 : Shape := ⟨2, ![1024, 128]⟩
abbrev S1024x1 : Shape := ⟨2, ![1024, 1]⟩
abbrev S1024x4 : Shape := ⟨2, ![1024, 4]⟩
abbrev S1024x512 : Shape := ⟨2, ![1024, 512]⟩
abbrev S1x4 : Shape := ⟨2, ![1, 4]⟩
abbrev S8x128 : Shape := ⟨2, ![8, 128]⟩
abbrev S32x128 : Shape := ⟨2, ![32, 128]⟩
abbrev S32x1 : Shape := ⟨2, ![32, 1]⟩
abbrev S1x1 : Shape := ⟨2, ![1, 1]⟩
abbrev S32x8193 : Shape := ⟨2, ![32, 8193]⟩

abbrev nBuf : Space → Nat
  | .hbm => 48
  | .vmem => 21
  | .smem => 0
  | _ => 0

abbrev bufTy : (tb : Table) → Fin (tcTables nBuf tb) → BufTy
  | .hbm, ⟨0, _⟩ => ⟨S32x128x128, .f32⟩
  | .hbm, ⟨1, _⟩ => ⟨S32x128x128x32, .f32⟩
  | .hbm, ⟨2, _⟩ => ⟨S288x4, .f32⟩
  | .hbm, ⟨3, _⟩ => ⟨S4, .f32⟩
  | .hbm, ⟨4, _⟩ => ⟨S128x1, .f32⟩
  | .hbm, ⟨5, _⟩ => ⟨S1, .f32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S32x8192, .i1⟩
  | .hbm, ⟨10, _⟩ => ⟨S32, .i1⟩
  | .hbm, ⟨11, _⟩ => ⟨S128x4, .f32⟩
  | .hbm, ⟨12, _⟩ => ⟨S128x4, .f32⟩
  | .hbm, ⟨13, _⟩ => ⟨S32x4, .f32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .f32⟩
  | .hbm, ⟨21, _⟩ => ⟨S128x1x128x1, .f32⟩
  | .hbm, ⟨22, _⟩ => ⟨S1x32x1x4, .f32⟩
  | .hbm, ⟨23, _⟩ => ⟨S128x32x128x4, .f32⟩
  | .hbm, ⟨24, _⟩ => ⟨S128x32x128x4, .f32⟩
  | .hbm, ⟨25, _⟩ => ⟨S128x32x128x4, .f32⟩
  | .hbm, ⟨26, _⟩ => ⟨S4096x512, .f32⟩
  | .hbm, ⟨27, _⟩ => ⟨S4096x512, .bf16⟩
  | .hbm, ⟨28, _⟩ => ⟨S32x128x4096, .f32⟩
  | .hbm, ⟨29, _⟩ => ⟨S32x8192, .i32⟩
  | .hbm, ⟨30, _⟩ => ⟨S32x64x128, .i32⟩
  | .hbm, ⟨31, _⟩ => ⟨S32x64x128, .f32⟩
  | .hbm, ⟨32, _⟩ => ⟨S32x8192, .f32⟩
  | .hbm, ⟨33, _⟩ => ⟨S_, .f32⟩
  | .hbm, ⟨34, _⟩ => ⟨S32x128, .f32⟩
  | .hbm, ⟨35, _⟩ => ⟨S_, .f32⟩
  | .hbm, ⟨36, _⟩ => ⟨S32x128, .f32⟩
  | .hbm, ⟨37, _⟩ => ⟨S32x128, .f32⟩
  | .hbm, ⟨38, _⟩ => ⟨S32x1, .f32⟩
  | .hbm, ⟨39, _⟩ => ⟨S1x1, .f32⟩
  | .hbm, ⟨40, _⟩ => ⟨S32x1, .f32⟩
  | .hbm, ⟨41, _⟩ => ⟨S32x1, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32x1, .f32⟩
  | .hbm, ⟨47, _⟩ => ⟨S32x8193, .f32⟩
  | .local _ .vmem, ⟨0, _⟩ => ⟨S1x128x128, .f32⟩
  | .local _ .vmem, ⟨1, _⟩ => ⟨S1x128x128, .f32⟩
  | .local _ .vmem, ⟨2, _⟩ => ⟨S1x128x4096, .f32⟩
  | .local _ .vmem, ⟨3, _⟩ => ⟨S1x128x4096, .f32⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S1024, .i32⟩
  | .local _ .vmem, ⟨9, _⟩ => ⟨S1024, .i32⟩
  | .local _ .vmem, ⟨10, _⟩ => ⟨S1x8x128, .i32⟩
  | .local _ .vmem, ⟨11, _⟩ => ⟨S1x8x128, .i32⟩
  | .local _ .vmem, ⟨12, _⟩ => ⟨S128x4, .f32⟩
  | .local _ .vmem, ⟨13, _⟩ => ⟨S128x4, .f32⟩
  | .local _ .vmem, ⟨14, _⟩ => ⟨S4096x512, .bf16⟩
  | .local _ .vmem, ⟨15, _⟩ => ⟨S4, .f32⟩
  | .local _ .vmem, ⟨16, _⟩ => ⟨S1x8x128, .f32⟩
  | .local _ .vmem, ⟨17, _⟩ => ⟨S1x8x128, .f32⟩
  | .local _ .vmem, ⟨18, _⟩ => ⟨S128x4, .bf16⟩
  | .local _ .vmem, ⟨19, _⟩ => ⟨S128x4, .bf16⟩
  | .local _ .vmem, ⟨20, _⟩ => ⟨S128x512, .bf16⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_call1_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S288x4_S128x4_0_0 : S288x4.Slices ![0, 0] S128x4
  slices_S288x4_S128x4_128_0 : S288x4.Slices ![128, 0] S128x4
  slices_S288x4_S32x4_256_0 : S288x4.Slices ![256, 0] S32x4
  bcast_S_S128x128 : S_.BroadcastsInDim S128x128 (![] : Fin 0 → Fin S128x128.rank)
  bcast_S128x128_S128x1x128x1_0_2 : S128x128.BroadcastsInDim S128x1x128x1 (![0, 2] : Fin 2 → Fin S128x1x128x1.rank)
  bcast_S32x4_S1x32x1x4_1_3 : S32x4.BroadcastsInDim S1x32x1x4 (![1, 3] : Fin 2 → Fin S1x32x1x4.rank)
  bcast_S128x1x128x1_S128x32x128x4_0_1_2_3 : S128x1x128x1.BroadcastsInDim S128x32x128x4 (![0, 1, 2, 3] : Fin 4 → Fin S128x32x128x4.rank)
  bcast_S1x32x1x4_S128x32x128x4_0_1_2_3 : S1x32x1x4.BroadcastsInDim S128x32x128x4 (![0, 1, 2, 3] : Fin 4 → Fin S128x32x128x4.rank)
  shapeCasts_S128x32x128x4_S4096x512 : S128x32x128x4.ShapeCasts S4096x512
  bitsLt_bf16_f32 : FTy.bits .bf16 < FTy.bits .f32
  shapeCasts_S32x128x128x32_S32x128x4096 : S32x128x128x32.ShapeCasts S32x128x4096
  natLt_1_32 : 1 < 32
  shapeCasts_S32x8192_S32x64x128 : S32x8192.ShapeCasts S32x64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  packedbf16_S128x4_S128x4_0_0 : (Rect.unit (s := S128x4) ![0, 0] S128x4.size inb_S128x4_S128x4_0_0).PackedRows (EltTy.packing .bf16)
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S1024_S1024_0 : ∀ a, (![0] : Fin 1 → Nat) a + S1024.size a ≤ S1024.size a
  h_S1024 : 0 < S1024.numel
  iota_S1024x128_d1_w32 : S1024x128.Iotas .tc 32 [1]
  shapeCasts_S1024_S1024x1 : S1024.ShapeCasts S1024x1
  broadcasts_S1024x1_S1024x128 : S1024x1.Broadcasts S1024x128
  iota_S1024x4_d1_w32 : S1024x4.Iotas .tc 32 [1]
  broadcasts_S1024x1_S1024x4 : S1024x1.Broadcasts S1024x4
  reduces_S1024x4_S1024 : S1024x4.Reduces [1] S1024
  iota_S1024x512_d1_w32 : S1024x512.Iotas .tc 32 [1]
  broadcasts_S1024x1_S1024x512 : S1024x1.Broadcasts S1024x512
  reduces_S1024x512_S1024 : S1024x512.Reduces [1] S1024
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  shapeCasts_S1024_S8x128 : S1024.ShapeCasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  shapeCasts_S32x64x128_S32x8192 : S32x64x128.ShapeCasts S32x8192
  reducesTo_S32x128x128_S32x128_d1 : S32x128x128.ReducesTo [1] S32x128
  h_S_ : 0 < S_.numel
  bcast_S_S32x128 : S_.BroadcastsInDim S32x128 (![] : Fin 0 → Fin S32x128.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  concatenates_S32x8192_S32x1_S32x8193_d1 : Shape.Concatenates [S32x8192, S32x1] S32x8193 1
  dot_S128x128_S128x4_S128x4_1_0_0_1_n_n_wf : DotDims.WF S128x128 S128x4 S128x4 [1] [0] [0] [1] [] []
  dot_S128x4096_S4096x512_S128x512_1_0_0_1_n_n_wf : DotDims.WF S128x4096 S4096x512 S128x512 [1] [0] [0] [1] [] []
  dot_S1024x128_S128x4_S1024x4_1_0_0_1_n_n_wf : DotDims.WF S1024x128 S128x4 S1024x4 [1] [0] [0] [1] [] []
  dot_S1024x128_S128x512_S1024x512_1_0_0_1_n_n_wf : DotDims.WF S1024x128 S128x512 S1024x512 [1] [0] [0] [1] [] []
  dot_S32x128_S128x1_S32x1_1_0_0_1_n_n_wf : DotDims.WF S32x128 S128x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S32x128x128.size a
  hwx0_0 : ∀ i : grid0.Coords, EltTy.bits .f32 = 32 ∨ (Rect.block (s := S32x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S32x128x4096.size a
  hwx0_1 : ∀ i : grid0.Coords, EltTy.bits .f32 = 32 ∨ (Rect.block (s := S32x128x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .i32 = 32 ∨ (Rect.block (s := S8192) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .i32 = 32 ∨ (Rect.block (s := S8192) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .i32 = 32 ∨ (Rect.block (s := S8192) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x64x128.size a
  hwx0_5 : ∀ i : grid0.Coords, EltTy.bits .i32 = 32 ∨ (Rect.block (s := S32x64x128) S1x8x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S128x4.size a
  hwx0_6 : ∀ i : grid0.Coords, EltTy.bits .f32 = 32 ∨ (Rect.block (s := S128x4) S128x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x4.size a ≤ S128x4.size a
  hwx0_7 : ∀ i : grid0.Coords, EltTy.bits .f32 = 32 ∨ (Rect.block (s := S128x4) S128x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x512.size a ≤ S4096x512.size a
  hwx0_8 : ∀ i : grid0.Coords, EltTy.bits .bf16 = 32 ∨ (Rect.block (s := S4096x512) S4096x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x128.size a ≤ S32x64x128.size a
  hwx0_10 : ∀ i : grid0.Coords, EltTy.bits .f32 = 32 ∨ (Rect.block (s := S32x64x128) S1x8x128.size (cc0_transform_10 i) (hinb0_10 i)).WholeWords (EltTy.packing .f32)

variable [Facts₀]

def dot_S128x128_S128x4_S128x4_1_0_0_1_n_n : DotDims S128x128 S128x4 S128x4 where
  lhsContracting := [1]
  rhsContracting := [0]
  lhsNonContracting := [0]
  rhsNonContracting := [1]
  lhsBatch := []
  rhsBatch := []
  wf := dot_S128x128_S128x4_S128x4_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x8x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4096x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x128x128 : Shape := ⟨3, ![32, 128, 128]⟩
abbrev S32x128x128x32 : Shape := ⟨4, ![32, 128, 128, 32]⟩
abbrev S288x4 : Shape := ⟨2, ![288, 4]⟩
abbrev S4 : Shape := ⟨1, ![4]⟩
abbrev S128x1 : Shape := ⟨2, ![128, 1]⟩
abbrev S1 : Shape := ⟨1, ![1]⟩
abbrev S8192 : Shape := ⟨1, ![8192]⟩
abbrev S32x8192 : Shape := ⟨2, ![32, 8192]⟩
abbrev S32 : Shape := ⟨1, ![32]⟩
abbrev S_ : Shape := ⟨0, ![]⟩
abbrev S8192x1 : Shape := ⟨2, ![8192, 1]⟩
abbrev S32x8192x128 : Shape := ⟨3, ![32, 8192, 128]⟩
abbrev S8192x2 : Shape := ⟨2, ![8192, 2]⟩
abbrev S32x8192x32 : Shape := ⟨3, ![32, 8192, 32]⟩
abbrev S32x8192x288 : Shape := ⟨3, ![32, 8192, 288]⟩
abbrev S32x8192x4 : Shape := ⟨3, ![32, 8192, 4]⟩
abbrev S1x1x4 : Shape := ⟨3, ![1, 1, 4]⟩
abbrev S1x8192x1 : Shape := ⟨3, ![1, 8192, 1]⟩
abbrev S32x8192x1 : Shape := ⟨3, ![32, 8192, 1]⟩
abbrev S32x8192x1x1 : Shape := ⟨4, ![32, 8192, 1, 1]⟩
abbrev S1x1x1x1 : Shape := ⟨4, ![1, 1, 1, 1]⟩
abbrev S32x128 : Shape := ⟨2, ![32, 128]⟩
abbrev S32x1 : Shape := ⟨2, ![32, 1]⟩
abbrev S1x1 : Shape := ⟨2, ![1, 1]⟩
abbrev S32x8193 : Shape := ⟨2, ![32, 8193]⟩

abbrev nBuf : Space → Nat
  | .hbm => 95
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x128x32, .f32⟩
  | .hbm, ⟨2, _⟩ => ⟨S288x4, .f32⟩
  | .hbm, ⟨3, _⟩ => ⟨S4, .f32⟩
  | .hbm, ⟨4, _⟩ => ⟨S128x1, .f32⟩
  | .hbm, ⟨5, _⟩ => ⟨S1, .f32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S32x8192, .i1⟩
  | .hbm, ⟨10, _⟩ => ⟨S32, .i1⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S32x8192x128, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S32x8192x128, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1, .i32⟩
  | .hbm, ⟨45, _⟩ => ⟨S8192x2, .i32⟩
  | .hbm, ⟨46, _⟩ => ⟨S32x8192x32, .f32⟩
  | .hbm, ⟨47, _⟩ => ⟨S32x8192x288, .f32⟩
  | .hbm, ⟨48, _⟩ => ⟨S32x8192x4, .f32⟩
  | .hbm, ⟨49, _⟩ => ⟨S1x1x4, .f32⟩
  | .hbm, ⟨50, _⟩ => ⟨S32x8192x4, .f32⟩
  | .hbm, ⟨51, _⟩ => ⟨S32x8192x4, .f32⟩
  | .hbm, ⟨52, _⟩ => ⟨S1x8192x1, .i32⟩
  | .hbm, ⟨53, _⟩ => ⟨S32x8192x1, .i32⟩
  | .hbm, ⟨54, _⟩ => ⟨S_, .i32⟩
  | .hbm, ⟨55, _⟩ => ⟨S32x8192x1, .i32⟩
  | .hbm, ⟨56, _⟩ => ⟨S32x8192x1, .i1⟩
  | .hbm, ⟨57, _⟩ => ⟨S_, .i32⟩
  | .hbm, ⟨58, _⟩ => ⟨S32x8192x1, .i32⟩
  | .hbm, ⟨59, _⟩ => ⟨S32x8192x1, .i32⟩
  | .hbm, ⟨60, _⟩ => ⟨S32x8192x1, .i32⟩
  | .hbm, ⟨61, _⟩ => ⟨S32x8192x1x1, .i32⟩
  | .hbm, ⟨62, _⟩ => ⟨S1, .i32⟩
  | .hbm, ⟨63, _⟩ => ⟨S_, .i32⟩
  | .hbm, ⟨64, _⟩ => ⟨S32x8192x1x1, .i32⟩
  | .hbm, ⟨65, _⟩ => ⟨S32x8192x1x1, .i1⟩
  | .hbm, ⟨66, _⟩ => ⟨S1x1x1x1, .i32⟩
  | .hbm, ⟨67, _⟩ => ⟨S32x8192x1x1, .i32⟩
  | .hbm, ⟨68, _⟩ => ⟨S32x8192x1x1, .i1⟩
  | .hbm, ⟨69, _⟩ => ⟨S32x8192x1x1, .i1⟩
  | .hbm, ⟨70, _⟩ => ⟨S_, .i1⟩
  | .hbm, ⟨71, _⟩ => ⟨S32x8192x1, .i1⟩
  | .hbm, ⟨72, _⟩ => ⟨S32x8192x1, .f32⟩
  | .hbm, ⟨73, _⟩ => ⟨S_, .f32⟩
  | .hbm, ⟨74, _⟩ => ⟨S32x8192x1, .f32⟩
  | .hbm, ⟨75, _⟩ => ⟨S32x8192x1, .f32⟩
  | .hbm, ⟨76, _⟩ => ⟨S32x8192, .f32⟩
  | .hbm, ⟨77, _⟩ => ⟨S_, .f32⟩
  | .hbm, ⟨78, _⟩ => ⟨S32x8192, .f32⟩
  | .hbm, ⟨79, _⟩ => ⟨S32x8192, .f32⟩
  | .hbm, ⟨80, _⟩ => ⟨S_, .f32⟩
  | .hbm, ⟨81, _⟩ => ⟨S32x128, .f32⟩
  | .hbm, ⟨82, _⟩ => ⟨S_, .f32⟩
  | .hbm, ⟨83, _⟩ => ⟨S32x128, .f32⟩
  | .hbm, ⟨84, _⟩ => ⟨S32x128, .f32⟩
  | .hbm, ⟨85, _⟩ => ⟨S32x1, .f32⟩
  | .hbm, ⟨86, _⟩ => ⟨S1x1, .f32⟩
  | .hbm, ⟨87, _⟩ => ⟨S32x1, .f32⟩
  | .hbm, ⟨88, _⟩ => ⟨S32x1, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32x1, .f32⟩
  | .hbm, ⟨94, _⟩ => ⟨S32x8193, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_cst : Ref sig .tc := ⟨.hbm, 73, rfl⟩
abbrev main_call0_v14 : Ref sig .tc := ⟨.hbm, 74, rfl⟩
abbrev main_v35 : Ref sig .tc := ⟨.hbm, 75, rfl⟩
abbrev main_v36 : Ref sig .tc := ⟨.hbm, 76, rfl⟩
abbrev main_cst : Ref sig .tc := ⟨.hbm, 77, rfl⟩
abbrev main_call1_v0 : Ref sig .tc := ⟨.hbm, 78, rfl⟩
abbrev main_v37 : Ref sig .tc := ⟨.hbm, 79, rfl⟩
abbrev main_cst_7 : Ref sig .tc := ⟨.hbm, 80, rfl⟩
abbrev main_v38 : Ref sig .tc := ⟨.hbm, 81, rfl⟩
abbrev main_cst_8 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_9 : Ref sig .tc := ⟨.hbm, 90, rfl⟩
abbrev main_call2_v0 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  concatenates_S32x8192x128_S32x8192x128_S32x8192x32_S32x8192x288_d2 : Shape.Concatenates [S32x8192x128, S32x8192x128, S32x8192x32] S32x8192x288 2
  bcast_S4_S1x1x4_2 : S4.BroadcastsInDim S1x1x4 (![2] : Fin 1 → Fin S1x1x4.rank)
  bcast_S1x1x4_S32x8192x4_0_1_2 : S1x1x4.BroadcastsInDim S32x8192x4 (![0, 1, 2] : Fin 3 → Fin S32x8192x4.rank)
  bcast_S8192_S1x8192x1_1 : S8192.BroadcastsInDim S1x8192x1 (![1] : Fin 1 → Fin S1x8192x1.rank)
  bcast_S1x8192x1_S32x8192x1_0_1_2 : S1x8192x1.BroadcastsInDim S32x8192x1 (![0, 1, 2] : Fin 3 → Fin S32x8192x1.rank)
  bcast_S_S32x8192x1 : S_.BroadcastsInDim S32x8192x1 (![] : Fin 0 → Fin S32x8192x1.rank)
  shapeCasts_S32x8192x1_S32x8192x1x1 : S32x8192x1.ShapeCasts S32x8192x1x1
  bcast_S_S32x8192x1x1 : S_.BroadcastsInDim S32x8192x1x1 (![] : Fin 0 → Fin S32x8192x1x1.rank)
  bcast_S1_S1x1x1x1_3 : S1.BroadcastsInDim S1x1x1x1 (![3] : Fin 1 → Fin S1x1x1x1.rank)
  bcast_S1x1x1x1_S32x8192x1x1_0_1_2_3 : S1x1x1x1.BroadcastsInDim S32x8192x1x1 (![0, 1, 2, 3] : Fin 4 → Fin S32x8192x1x1.rank)
  reducesTo_S32x8192x1x1_S32x8192x1_d3 : S32x8192x1x1.ReducesTo [3] S32x8192x1
  h_S_ : 0 < S_.numel
  shapeCasts_S32x8192x1_S32x8192 : S32x8192x1.ShapeCasts S32x8192
  bcast_S_S32x8192 : S_.BroadcastsInDim S32x8192 (![] : Fin 0 → Fin S32x8192.rank)
  reducesTo_S32x128x128_S32x128_d1 : S32x128x128.ReducesTo [1] S32x128
  bcast_S_S32x128 : S_.BroadcastsInDim S32x128 (![] : Fin 0 → Fin S32x128.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  concatenates_S32x8192_S32x1_S32x8193_d1 : Shape.Concatenates [S32x8192, S32x1] S32x8193 1
  gather_S32x128x128_S8192x1_S32x8192x128_02_1_n_n_1_1_321128_wf : GatherDims.WF S32x128x128 S8192x1 S32x8192x128 [0, 2] [1] [] [1] [] 1 ![32, 1, 128]
  gather_S32x128x128x32_S8192x2_S32x8192x32_02_12_n_n_12_1_321132_wf : GatherDims.WF S32x128x128x32 S8192x2 S32x8192x32 [0, 2] [1, 2] [] [1, 2] [] 1 ![32, 1, 1, 32]
  dot_S32x8192x288_S288x4_S32x8192x4_2_0_01_1_n_n_wf : DotDims.WF S32x8192x288 S288x4 S32x8192x4 [2] [0] [0, 1] [1] [] []
  gather_S32x8192x4_S32x8192x1x1_S32x8192x1_n_2_01_01_2_3_111_wf : GatherDims.WF S32x8192x4 S32x8192x1x1 S32x8192x1 [] [2] [0, 1] [2] [0, 1] 3 ![1, 1, 1]
  dot_S32x128_S128x1_S32x1_1_0_0_1_n_n_wf : DotDims.WF S32x128 S128x1 S32x1 [1] [0] [0] [1] [] []

variable [Facts₀]

def gather_S32x128x128_S8192x1_S32x8192x128_02_1_n_n_1_1_321128 : GatherDims S32x128x128 S8192x1 S32x8192x128 where
  offsetDims := [0, 2]
  collapsedSliceDims := [1]
  operandBatchingDims := []
  startIndicesBatchingDims := []
  startIndexMap := [1]
  indexVectorDim := 1
  sliceSizes := ![32, 1, 128]
  wf := gather_S32x128x128_S8192x1_S32x8192x128_02_1_n_n_1_1_321128_wf
def gather_S32x128x128x32_S8192x2_S32x8192x32_02_12_n_n_12_1_321132 : GatherDims S32x128x128x32 S8192x2 S32x8192x32 where
  offsetDims := [0, 2]
  collapsedSliceDims := [1, 2]
  operandBatchingDims := []
  startIndicesBatchingDims := []
  startIndexMap := [1, 2]
  indexVectorDim := 1
  sliceSizes := ![32, 1, 1, 32]
  wf := gather_S32x128x128x32_S8192x2_S32x8192x32_02_12_n_n_12_1_321132_wf
def dot_S32x8192x288_S288x4_S32x8192x4_2_0_01_1_n_n : DotDims S32x8192x288 S288x4 S32x8192x4 where
  lhsContracting := [2]
  rhsContracting := [0]
  lhsNonContracting := [0, 1]
  rhsNonContracting := [1]
  lhsBatch := []
  rhsBatch := []
  wf := dot_S32x8192x288_S288x4_S32x8192x4_2_0_01_1_n_n_wf
def gather_S32x8192x4_S32x8192x1x1_S32x8192x1_n_2_01_01_2_3_111 : GatherDims S32x8192x4 S32x8192x1x1 S32x8192x1 where
  offsetDims := []
  collapsedSliceDims := [2]
  operandBatchingDims := [0, 1]
  startIndicesBatchingDims := [0, 1]
  startIndexMap := [2]
  indexVectorDim := 3
  sliceSizes := ![1, 1, 1]
  wf := gather_S32x8192x4_S32x8192x1x1_S32x8192x1_n_2_01_01_2_3_111_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

class Facts : Prop extends Facts₀ where

variable [Facts]
-- ==== Proof.PreDecode.lean ====
/-
  What the precondition says of the three index inputs.

  The printed precondition ends with three conjuncts, one per index array: every word w of the array satisfies
  0 <= w (signed) and w < N (signed), with N = 128 for the two node arrays and N = 4 for the channel array. A word
  that is non-negative as a signed number and below N as a signed number is below N as a natural number.
-/
import proofs.«404348_j52080773431693_3_alg».proof.Pre_finite_inputs
import proofs.«404348_j52080773431693_3_alg».proof.Proof.Gen.Pre_finite_inputs
import Idealize.ShloMosaic.Lib.ReduceAll
import Idealize.ShloMosaic.Lib.StableHlo.Predicate
import Idealize.ShloMosaic.Lib.ValueIdx

noncomputable section

namespace Cert.EditPre

open Idealize.ShloMosaic Idealize.ShloMosaic.ValueIdx Cert.Pre_finite_inputs

/-- A word that tests non-negative (signed) and below the literal `N` (signed), `N < 2³¹`, is below `N` read
    as a natural number: its top bit is clear, so its signed and unsigned readings agree. -/
theorem word_lt (w : BitVec 32) (N : Nat) (hN : N < 2 ^ 31)
    (e : IntOp.andi (IntOp.cmpi .sge w 0#32) (IntOp.cmpi .slt w (BitVec.ofNat 32 N)) = 1#1) : w.toNat < N := by
  obtain ⟨h1, h2⟩ := IntOp.andi_eq_one.1 e
  rw [IntOp.cmpi_sge, show (0#32 : BitVec 32).toInt = 0 from by decide] at h1
  rw [IntOp.cmpi_slt, StableHlo.Predicate.toInt_ofNat_small N hN] at h2
  have hw : 2 * w.toNat < 2 ^ 32 := BitVec.toInt_pos_iff.1 h1
  rw [StableHlo.Predicate.toInt_eq_toNat_of_lt (by omega)] at h2
  exact_mod_cast h2

/-- The result shape of a reduction over every axis has one index. -/
instance : Subsingleton S_.Idx := ⟨fun a b => funext fun d => d.elim0⟩

/-- Under the precondition every node word is below 128 and every channel word below 4. -/
theorem ranges {F : FTy → Type} [FloatOps F]
    (a0 : FVec F S32x128x128 .f32) (a1 : FVec F S32x128x128x32 .f32) (a2 : FVec F S288x4 .f32) (a3 : FVec F S4 .f32)
    (a4 : FVec F S128x1 .f32) (a5 : FVec F S1 .f32) (a6 a7 a8 : IVec S8192 32) (a9 : IVec S32x8192 1) (a10 : IVec S32 1)
    (h : fn (F := F) a0 a1 a2 a3 a4 a5 a6 a7 a8 a9 a10 = fun _ => 1#1) :
    (∀ k : Fin 8192, (a6 (ix1 k)).toNat < 128) ∧ (∀ k : Fin 8192, (a7 (ix1 k)).toNat < 128)
      ∧ (∀ k : Fin 8192, (a8 (ix1 k)).toNat < 4) := by
  have h0 := congrFun h ValueIdx.ix0
  dsimp only [fn, fn_part1, fn_part2] at h0
  obtain ⟨h0, h48⟩ := IntOp.andi_eq_one.1 h0
  obtain ⟨h0, h41⟩ := IntOp.andi_eq_one.1 h0
  obtain ⟨-, h34⟩ := IntOp.andi_eq_one.1 h0
  refine ⟨fun k => ?_, fun k => ?_, fun k => ?_⟩
  · exact word_lt _ 128 (by norm_num) (Host.reduce_andi_all _ _ _ _ _ h34 (ix1 k))
  · exact word_lt _ 128 (by norm_num) (Host.reduce_andi_all _ _ _ _ _ h41 (ix1 k))
  · exact word_lt _ 4 (by norm_num) (Host.reduce_andi_all _ _ _ _ _ h48 (ix1 k))

end Cert.EditPre

end
-- ==== Proof.Spec.lean ====
/-
  The edit-selection logits as ONE function of the argument arrays.

  For batch b and edit k, with i = i_idx[k], j = j_idx[k], c = b_idx[k]:
    logit = (sum over d < 128 of h_nodes[b,i,d] * W[d,c])
          + (sum over d < 128 of h_nodes[b,j,d] * W[128+d,c])
          + (sum over e < 32  of h_edges[b,i,j,e] * W[256+e,c])
          + b_edit[c],
  kept where feas[b,k] is set and replaced by the minus-infinity word elsewhere. The three partial sums are the
  three row bands of the one 288-row weight matrix, so the sum over all 288 feature rows is their sum
  (`sum_rows`). A one-hot row picks one term out of a sum (`sum_onehot_mul`, `sum_mul_onehot`): on the extended
  reals zero times anything is zero and zero is neutral for the sum, so no finiteness is needed.
-/
import Idealize.ShloMosaic.PureOps.Ideal
import Idealize.ShloMosaic.PureOps.Ideal.Laws
import Idealize.ShloMosaic.Lib.ValueIdx

noncomputable section

namespace Cert.EditSpec

open Idealize.ShloMosaic Idealize.ShloMosaic.ValueIdx

abbrev SNodes : Shape := ⟨3, ![32, 128, 128]⟩
abbrev SEdges : Shape := ⟨4, ![32, 128, 128, 32]⟩
abbrev SWeights : Shape := ⟨2, ![288, 4]⟩
abbrev SBias : Shape := ⟨1, ![4]⟩
abbrev SEdits : Shape := ⟨1, ![8192]⟩
abbrev SOut : Shape := ⟨2, ![32, 8192]⟩

/-- Row d of the first band of the weight matrix (the rows that meet node i's features). -/
def band1 (d : Fin 128) : Fin 288 := ⟨d.val, by omega⟩
/-- Row 128 + d: the band that meets node j's features. -/
def band2 (d : Fin 128) : Fin 288 := ⟨128 + d.val, by omega⟩
/-- Row 256 + e: the band that meets the edge's features. -/
def band3 (e : Fin 32) : Fin 288 := ⟨256 + e.val, by omega⟩

/-- The node a word names (the word itself when it is below 128). -/
def node (w : BitVec 32) : Fin 128 := ⟨w.toNat % 128, Nat.mod_lt _ (by decide)⟩
/-- The channel a word names (the word itself when it is below 4). -/
def chan (w : BitVec 32) : Fin 4 := ⟨w.toNat % 4, Nat.mod_lt _ (by decide)⟩

theorem node_val {w : BitVec 32} (h : w.toNat < 128) : (node w).val = w.toNat := Nat.mod_eq_of_lt h
theorem chan_val {w : BitVec 32} (h : w.toNat < 4) : (chan w).val = w.toNat := Nat.mod_eq_of_lt h

/-- The logit of edit (i, j, c) in batch b. -/
def logit (h : FVec Ideal SNodes .f32) (he : FVec Ideal SEdges .f32) (W : FVec Ideal SWeights .f32) (be : FVec Ideal SBias .f32)
    (b : Fin 32) (i j : Fin 128) (c : Fin 4) : EReal :=
  (∑ d : Fin 128, h (ix3 b i d) * W (ix2 (band1 d) c)) + (∑ d : Fin 128, h (ix3 b j d) * W (ix2 (band2 d) c))
    + (∑ e : Fin 32, he (ix4 b i j e) * W (ix2 (band3 e) c)) + be (ix1 c)

/-- The selected logit of batch b, edit k: the logit where the edit is feasible, minus infinity's word elsewhere. -/
def sel (h : FVec Ideal SNodes .f32) (he : FVec Ideal SEdges .f32) (W : FVec Ideal SWeights .f32) (be : FVec Ideal SBias .f32)
    (ii jj bb : IVec SEdits 32) (feas : IVec SOut 1) (b : Fin 32) (k : Fin 8192) : EReal :=
  if feas (ix2 b k) = 1#1 then logit h he W be b (node (ii (ix1 k))) (node (jj (ix1 k))) (chan (bb (ix1 k)))
  else Ideal.ofBits .f32 0xFF800000#32

/-- All selected logits, as an array over (batch, edit). -/
def selArr (h : FVec Ideal SNodes .f32) (he : FVec Ideal SEdges .f32) (W : FVec Ideal SWeights .f32) (be : FVec Ideal SBias .f32)
    (ii jj bb : IVec SEdits 32) (feas : IVec SOut 1) : FVec Ideal SOut .f32 :=
  fun idx => sel h he W be ii jj bb feas (idx 0) (idx 1)

theorem selArr_apply (h : FVec Ideal SNodes .f32) (he : FVec Ideal SEdges .f32) (W : FVec Ideal SWeights .f32) (be : FVec Ideal SBias .f32)
    (ii jj bb : IVec SEdits 32) (feas : IVec SOut 1) (b : Fin 32) (k : Fin 8192) :
    selArr h he W be ii jj bb feas (ix2 b k) = sel h he W be ii jj bb feas b k := rfl

/-- A sum over the 288 feature rows is the sum of its three bands. -/
theorem sum_rows (f : Fin 288 → EReal) :
    ∑ r : Fin 288, f r = (∑ d : Fin 128, f (band1 d)) + (∑ d : Fin 128, f (band2 d)) + ∑ e : Fin 32, f (band3 e) := by
  show ∑ r : Fin (128 + 128 + 32), f r = _
  rw [Fin.sum_univ_add, Fin.sum_univ_add]
  rfl

/-- A one-hot row on the left picks its term. -/
theorem sum_onehot_mul {n : Nat} (i : Fin n) (x : Fin n → EReal) :
    ∑ k : Fin n, (if k = i then (1 : EReal) else 0) * x k = x i := by
  rw [Finset.sum_eq_single i]
  · rw [if_pos rfl, one_mul]
  · intro k _ hk; rw [if_neg hk, zero_mul]
  · intro hi; exact absurd (Finset.mem_univ i) hi

/-- A one-hot row on the right picks its term. -/
theorem sum_mul_onehot {n : Nat} (i : Fin n) (x : Fin n → EReal) :
    ∑ k : Fin n, x k * (if k = i then (1 : EReal) else 0) = x i := by
  rw [Finset.sum_eq_single i]
  · rw [if_pos rfl, mul_one]
  · intro k _ hk; rw [if_neg hk, mul_zero]
  · intro hi; exact absurd (Finset.mem_univ i) hi

end Cert.EditSpec

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KPay.lean ====
/-
  The kernel body's stored values read at an index, at the ideal instance.

  At the first chunk of a batch the body projects before it gathers: for the batch's node block x0 [1,128,128] and the
  weight bands W1, W2 [128,4] it stores R1[n,c] = sum over d of x0[0,n,d] * W1[d,c] and R2 likewise, and for the
  batch's flattened edge block x1 [1,128,4096] and the block-diagonal table Wb [4096,512] it stores
  Qt[n,q] = sum over k of x1[0,n,k] * Wb[k,q] (changes of float format are the identity here).
  At every chunk, edit row r*128 + l with words i, j, c in range reads R1[i,c] + R2[j,c] + Qt[i, 4j+c] + bias[c]:
  each one-hot row times a table is that table's row (a sum with one non-zero term), and each 0/1 mask over the
  channels, or over the 512 columns, keeps one entry of a row. Where the feasibility word is zero the body stores the
  minus-infinity word instead.
-/
import proofs.«404348_j52080773431693_3_alg».proof.Proof.Gen.KernelIdeal.Skeleton
import proofs.«404348_j52080773431693_3_alg».proof.Proof.Spec
import proofs.«404348_j52080773431693_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.EditKernel

open Idealize.ShloMosaic Idealize.ShloMosaic.ValueIdx Cert.KernelIdeal Cert.KernelIdeal.Gen Cert.EditSpec

/-- Edit row r * 128 + l of a chunk of 1024 edits, laid out [8,128]. -/
def row (r : Fin 8) (l : Fin 128) : Fin 1024 := ⟨r.val * 128 + l.val, by omega⟩
/-- Column 4 * j + c of the projected edge table: node j, channel c. -/
def col (j : Fin 128) (c : Fin 4) : Fin 512 := ⟨j.val * 4 + c.val, by omega⟩

/-! ## The two products read at an index -/

theorem lhs_node_0 (i : S128x4.Idx) (q : dot_S128x128_S128x4_S128x4_1_0_0_1_n_n.contr.Idx) :
    (dot_S128x128_S128x4_S128x4_1_0_0_1_n_n.lhsIdx i q 0).val = (i 0).val := by
  unfold DotDims.lhsIdx
  rw [dif_neg (show ¬(0 : Fin S128x128.rank) ∈ dot_S128x128_S128x4_S128x4_1_0_0_1_n_n.lhsBatch by decide), dif_pos (show (0 : Fin S128x128.rank) ∈ dot_S128x128_S128x4_S128x4_1_0_0_1_n_n.lhsNonContracting by decide)]
  rfl
theorem lhs_node_1 (i : S128x4.Idx) (q : dot_S128x128_S128x4_S128x4_1_0_0_1_n_n.contr.Idx) :
    (dot_S128x128_S128x4_S128x4_1_0_0_1_n_n.lhsIdx i q 1).val = (q ⟨0, by decide⟩).val :=
  dot_S128x128_S128x4_S128x4_1_0_0_1_n_n.lhsIdx_val_of_single rfl i q
theorem rhs_node_0 (i : S128x4.Idx) (q : dot_S128x128_S128x4_S128x4_1_0_0_1_n_n.contr.Idx) :
    (dot_S128x128_S128x4_S128x4_1_0_0_1_n_n.rhsIdx i q 0).val = (q ⟨0, by decide⟩).val :=
  dot_S128x128_S128x4_S128x4_1_0_0_1_n_n.rhsIdx_val_of_single rfl i q
theorem rhs_node_1 (i : S128x4.Idx) (q : dot_S128x128_S128x4_S128x4_1_0_0_1_n_n.contr.Idx) :
    (dot_S128x128_S128x4_S128x4_1_0_0_1_n_n.rhsIdx i q 1).val = (i 1).val := by
  unfold DotDims.rhsIdx
  rw [dif_neg (show ¬(1 : Fin S128x4.rank) ∈ dot_S128x128_S128x4_S128x4_1_0_0_1_n_n.rhsBatch by decide), dif_pos (show (1 : Fin S128x4.rank) ∈ dot_S128x128_S128x4_S128x4_1_0_0_1_n_n.rhsNonContracting by decide)]
  rfl

/-- The product into the zero accumulator, read at (n, c), is the sum over the contracted axis. -/
theorem prod_node_apply {φ₁ φ₂ : FTy} (a : FVec Ideal S128x128 φ₁) (b : FVec Ideal S128x4 φ₂) (n : Fin 128) (c : Fin 4) :
    matmul dot_S128x128_S128x4_S128x4_1_0_0_1_n_n none a b (constant (F := Ideal) S128x4 .f32 0x00000000#32) (ix2 n c) = ∑ k : Fin 128, a (ix2 n k) * b (ix2 k c) := by
  simp only [matmul]
  rw [Ideal.matmul_constant_zero_apply, ← Equiv.sum_comp (ValueIdx.contrEquiv1 dot_S128x128_S128x4_S128x4_1_0_0_1_n_n 128 rfl rfl).symm]
  refine Finset.sum_congr rfl fun k _ => ?_
  have hk := ValueIdx.contrEquiv1_symm_val dot_S128x128_S128x4_S128x4_1_0_0_1_n_n 128 rfl rfl k
  have el : dot_S128x128_S128x4_S128x4_1_0_0_1_n_n.lhsIdx (ix2 n c) ((ValueIdx.contrEquiv1 dot_S128x128_S128x4_S128x4_1_0_0_1_n_n 128 rfl rfl).symm k) = ix2 n k := funext fun a => Fin.ext (by
    match a with
    | ⟨0, _⟩ => exact lhs_node_0 _ _
    | ⟨1, _⟩ => exact (lhs_node_1 _ _).trans hk)
  have er : dot_S128x128_S128x4_S128x4_1_0_0_1_n_n.rhsIdx (ix2 n c) ((ValueIdx.contrEquiv1 dot_S128x128_S128x4_S128x4_1_0_0_1_n_n 128 rfl rfl).symm k) = ix2 k c := funext fun a => Fin.ext (by
    match a with
    | ⟨0, _⟩ => exact (rhs_node_0 _ _).trans hk
    | ⟨1, _⟩ => exact rhs_node_1 _ _)
  rw [el, er]

theorem lhs_edge_0 (i : S128x512.Idx) (q : dot_S128x4096_S4096x512_S128x512_1_0_0_1_n_n.contr.Idx) :
    (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem lhs_edge_1 (i : S128x512.Idx) (q : dot_S128x4096_S4096x512_S128x512_1_0_0_1_n_n.contr.Idx) :
    (dot_S128x4096_S4096x512_S128x512_1_0_0_1_n_n.lhsIdx i q 1).val = (q ⟨0, by decide⟩).val :=
  dot_S128x4096_S4096x512_S128x512_1_0_0_1_n_n.lhsIdx_val_of_single rfl i q
theorem rhs_edge_0 (i : S128x512.Idx) (q : dot_S128x4096_S4096x512_S128x512_1_0_0_1_n_n.contr.Idx) :
    (dot_S128x4096_S4096x512_S128x512_1_0_0_1_n_n.rhsIdx i q 0).val = (q ⟨0, by decide⟩).val :=
  dot_S128x4096_S4096x512_S128x512_1_0_0_1_n_n.rhsIdx_val_of_single rfl i q
theorem rhs_edge_1 (i : S128x512.Idx) (q : dot_S128x4096_S4096x512_S128x512_1_0_0_1_n_n.contr.Idx) :
    (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-- The product into the zero accumulator, read at (n, c), is the sum over the contracted axis. -/
theorem prod_edge_apply {φ₁ φ₂ : FTy} (a : FVec Ideal S128x4096 φ₁) (b : FVec Ideal S4096x512 φ₂) (n : Fin 128) (c : Fin 512) :
    matmul dot_S128x4096_S4096x512_S128x512_1_0_0_1_n_n none a b (constant (F := Ideal) S128x512 .f32 0x00000000#32) (ix2 n c) = ∑ k : Fin 4096, a (ix2 n k) * b (ix2 k c) := by
  simp only [matmul]
  rw [Ideal.matmul_constant_zero_apply, ← Equiv.sum_comp (ValueIdx.contrEquiv1 dot_S128x4096_S4096x512_S128x512_1_0_0_1_n_n 4096 rfl rfl).symm]
  refine Finset.sum_congr rfl fun k _ => ?_
  have hk := ValueIdx.contrEquiv1_symm_val dot_S128x4096_S4096x512_S128x512_1_0_0_1_n_n 4096 rfl rfl k
  have el : dot_S128x4096_S4096x512_S128x512_1_0_0_1_n_n.lhsIdx (ix2 n c) ((ValueIdx.contrEquiv1 dot_S128x4096_S4096x512_S128x512_1_0_0_1_n_n 4096 rfl rfl).symm k) = ix2 n k := funext fun a => Fin.ext (by
    match a with
    | ⟨0, _⟩ => exact lhs_edge_0 _ _
    | ⟨1, _⟩ => exact (lhs_edge_1 _ _).trans hk)
  have er : dot_S128x4096_S4096x512_S128x512_1_0_0_1_n_n.rhsIdx (ix2 n c) ((ValueIdx.contrEquiv1 dot_S128x4096_S4096x512_S128x512_1_0_0_1_n_n 4096 rfl rfl).symm k) = ix2 k c := funext fun a => Fin.ext (by
    match a with
    | ⟨0, _⟩ => exact (rhs_edge_0 _ _).trans hk
    | ⟨1, _⟩ => exact rhs_edge_1 _ _)
  rw [el, er]

/-- The node block with its unit axis dropped and its format changed, read at (n, d). -/
theorem nodeBlock_apply (x0 : Vec Ideal S1x128x128 .f32) (n d : Fin 128) :
    k0_pay2 (F := Ideal) x0 (ix2 n d) = x0 (ix3 (0 : Fin 1) n d) := by
  unfold k0_pay2
  rw [truncf_apply, shapeCast_1ab_ab_apply]

/-- R1: the node block times the first weight band. -/
theorem proj1_apply (x0 : Vec Ideal S1x128x128 .f32) (x6 : Vec Ideal S128x4 .f32) (n : Fin 128) (c : Fin 4) :
    k0_pay3 (F := Ideal) x0 x6 (ix2 n c) = ∑ d : Fin 128, x0 (ix3 (0 : Fin 1) n d) * x6 (ix2 d c) := by
  unfold k0_pay3
  rw [shapeCast_self, truncf_apply, prod_node_apply]
  refine Finset.sum_congr rfl fun d _ => ?_
  rw [nodeBlock_apply, truncf_apply, shapeCast_self]

/-- R2: the node block times the second weight band. -/
theorem proj2_apply (x0 : Vec Ideal S1x128x128 .f32) (x7 : Vec Ideal S128x4 .f32) (n : Fin 128) (c : Fin 4) :
    k0_pay4 (F := Ideal) x0 x7 (ix2 n c) = ∑ d : Fin 128, x0 (ix3 (0 : Fin 1) n d) * x7 (ix2 d c) := by
  unfold k0_pay4
  rw [shapeCast_self, truncf_apply, prod_node_apply]
  refine Finset.sum_congr rfl fun d _ => ?_
  rw [nodeBlock_apply, truncf_apply, shapeCast_self]

/-- Qt: the flattened edge block times the block-diagonal table. -/
theorem projE_apply (x1 : Vec Ideal S1x128x4096 .f32) (x8 : Vec Ideal S4096x512 .bf16) (n : Fin 128) (q : Fin 512) :
    k0_pay5 (F := Ideal) x1 x8 (ix2 n q) = ∑ k : Fin 4096, x1 (ix3 (0 : Fin 1) n k) * x8 (ix2 k q) := by
  unfold k0_pay5
  rw [shapeCast_self, truncf_apply, prod_edge_apply]
  refine Finset.sum_congr rfl fun k _ => ?_
  rw [truncf_apply, shapeCast_1ab_ab_apply, shapeCast_self]

end Cert.EditKernel

end
-- ==== Proof.KPieces.lean ====
/-
  What one run of the kernel body leaves behind, as the body's own arithmetic.

  At the first chunk of a batch (case A) the body stores the three projected tables whole, each one store of a value
  computed from that point's input blocks, and then reads them back for the chunk's edits; at a later chunk (case B)
  it stores nothing into the tables and reads what the point before left. In both cases the output block is one
  whole store. A buffer covered by one whole store holds that store's value, so each found piece list reads back as
  the stored term.
-/
import proofs.«404348_j52080773431693_3_alg».proof.Proof.Gen.KernelIdeal.Frame
import Idealize.ShloMosaic.Lib.Pipeline.Value
import Idealize.ShloMosaic.Lib.Tactic

set_option maxRecDepth 16384

noncomputable section

namespace Cert.EditKernel

open Idealize.ShloMosaic Idealize.ShloMosaic.TcCoe Idealize.ShloMosaic.Tactic Cert.KernelIdeal Cert.KernelIdeal.Gen
open Idealize.SL Idealize.SL.Sem

variable {F : FTy → Type} [FloatOps F]

/-- A one-axis rectangle starting at the origin. -/
theorem hz1 : (![0] : Fin 1 → Nat) = fun _ => 0 := funext fun a => by fin_cases a <;> rfl

/-- A two-axis rectangle starting at the origin. -/
theorem hz2 : (![0, 0] : Fin 2 → Nat) = fun _ => 0 := funext fun a => by fin_cases a <;> rfl

/-- A three-axis rectangle starting at the origin. -/
theorem hz3 : (![0, 0, 0] : Fin 3 → Nat) = fun _ => 0 := funext fun a => by fin_cases a <;> rfl

/-- The output block as a function of the ten input blocks and the three tables the edits read. -/
def blockOut (x2 x3 x4 : Vec F S1024 .i32) (x5 : Vec F S1x8x128 .i32) (x9 : Vec F S4 .f32)
    (s0 s1 : Vec F S128x4 .bf16) (s2 : Vec F S128x512 .bf16) : Vec F S1x8x128 .f32 :=
  k0_pay1 (k0_pay7 x2 s2) (k0_pay8 x4) (k0_pay9 x2 x4 s0) (k0_pay10 x3 x4 s1)
    (iota .tc S1024x512 32 [1] iota_S1024x512_d1_w32) (k0_pay11 x3 x4) x9 x5

/-- Case A leaves the first projected node table in the first scratch buffer. -/
theorem tableA0 (c : Dev nD) (i : grid0.Coords) (arg2 : Memref sig .tc .vmem S1x128x128 .f32) (harg2 : arg2.IsWhole) (arg3 : Memref sig .tc .vmem S1x128x4096 .f32) (harg3 : arg3.IsWhole) (arg4 : Memref sig .tc .vmem S1024 .i32) (harg4 : arg4.IsWhole) (arg5 : Memref sig .tc .vmem S1024 .i32) (harg5 : arg5.IsWhole) (arg6 : Memref sig .tc .vmem S1024 .i32) (harg6 : arg6.IsWhole) (arg7 : Memref sig .tc .vmem S1x8x128 .i32) (harg7 : arg7.IsWhole) (arg8 : Memref sig .tc .vmem S128x4 .f32) (harg8 : arg8.IsWhole) (arg9 : Memref sig .tc .vmem S128x4 .f32) (harg9 : arg9.IsWhole) (arg10 : Memref sig .tc .vmem S4096x512 .bf16) (harg10 : arg10.IsWhole) (arg11 : Memref sig .tc .vmem S4 .f32) (harg11 : arg11.IsWhole) (arg12 : Memref sig .tc .vmem S1x8x128 .f32) (harg12 : arg12.IsWhole) (arg13 : Memref sig .tc .vmem S128x4 .bf16) (harg13 : arg13.IsWhole) (arg14 : Memref sig .tc .vmem S128x4 .bf16) (harg14 : arg14.IsWhole) (arg15 : Memref sig .tc .vmem S128x512 .bf16) (harg15 : arg15.IsWhole) (hc0 : cond0_0 i)
    (x0 : Vec F S1x128x128 .f32) (x1 : Vec F S1x128x4096 .f32) (x2 : Vec F S1024 .i32) (x3 : Vec F S1024 .i32) (x4 : Vec F S1024 .i32) (x5 : Vec F S1x8x128 .i32) (x6 : Vec F S128x4 .f32) (x7 : Vec F S128x4 .f32) (x8 : Vec F S4096x512 .bf16) (x9 : Vec F S4 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay3 x0 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg8.read_unread, harg9.read_unread, harg10.read_unread,
    View.ld_unit_zero (S := S1x128x128) hz3, View.ld_unit_zero (S := S1x128x4096) hz3, View.ld_unit_zero (S := S128x4) hz2,
    View.ld_unit_zero (S := S4096x512) hz2]

/-- Case A leaves the second projected node table in the second scratch buffer. -/
theorem tableA1 (c : Dev nD) (i : grid0.Coords) (arg2 : Memref sig .tc .vmem S1x128x128 .f32) (harg2 : arg2.IsWhole) (arg3 : Memref sig .tc .vmem S1x128x4096 .f32) (harg3 : arg3.IsWhole) (arg4 : Memref sig .tc .vmem S1024 .i32) (harg4 : arg4.IsWhole) (arg5 : Memref sig .tc .vmem S1024 .i32) (harg5 : arg5.IsWhole) (arg6 : Memref sig .tc .vmem S1024 .i32) (harg6 : arg6.IsWhole) (arg7 : Memref sig .tc .vmem S1x8x128 .i32) (harg7 : arg7.IsWhole) (arg8 : Memref sig .tc .vmem S128x4 .f32) (harg8 : arg8.IsWhole) (arg9 : Memref sig .tc .vmem S128x4 .f32) (harg9 : arg9.IsWhole) (arg10 : Memref sig .tc .vmem S4096x512 .bf16) (harg10 : arg10.IsWhole) (arg11 : Memref sig .tc .vmem S4 .f32) (harg11 : arg11.IsWhole) (arg12 : Memref sig .tc .vmem S1x8x128 .f32) (harg12 : arg12.IsWhole) (arg13 : Memref sig .tc .vmem S128x4 .bf16) (harg13 : arg13.IsWhole) (arg14 : Memref sig .tc .vmem S128x4 .bf16) (harg14 : arg14.IsWhole) (arg15 : Memref sig .tc .vmem S128x512 .bf16) (harg15 : arg15.IsWhole) (hc0 : cond0_0 i)
    (x0 : Vec F S1x128x128 .f32) (x1 : Vec F S1x128x4096 .f32) (x2 : Vec F S1024 .i32) (x3 : Vec F S1024 .i32) (x4 : Vec F S1024 .i32) (x5 : Vec F S1x8x128 .i32) (x6 : Vec F S128x4 .f32) (x7 : Vec F S128x4 .f32) (x8 : Vec F S4096x512 .bf16) (x9 : Vec F S4 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay4 x0 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg8.read_unread, harg9.read_unread, harg10.read_unread,
    View.ld_unit_zero (S := S1x128x128) hz3, View.ld_unit_zero (S := S1x128x4096) hz3, View.ld_unit_zero (S := S128x4) hz2,
    View.ld_unit_zero (S := S4096x512) hz2]

/-- Case A leaves the projected edge table in the third scratch buffer. -/
theorem tableA2 (c : Dev nD) (i : grid0.Coords) (arg2 : Memref sig .tc .vmem S1x128x128 .f32) (harg2 : arg2.IsWhole) (arg3 : Memref sig .tc .vmem S1x128x4096 .f32) (harg3 : arg3.IsWhole) (arg4 : Memref sig .tc .vmem S1024 .i32) (harg4 : arg4.IsWhole) (arg5 : Memref sig .tc .vmem S1024 .i32) (harg5 : arg5.IsWhole) (arg6 : Memref sig .tc .vmem S1024 .i32) (harg6 : arg6.IsWhole) (arg7 : Memref sig .tc .vmem S1x8x128 .i32) (harg7 : arg7.IsWhole) (arg8 : Memref sig .tc .vmem S128x4 .f32) (harg8 : arg8.IsWhole) (arg9 : Memref sig .tc .vmem S128x4 .f32) (harg9 : arg9.IsWhole) (arg10 : Memref sig .tc .vmem S4096x512 .bf16) (harg10 : arg10.IsWhole) (arg11 : Memref sig .tc .vmem S4 .f32) (harg11 : arg11.IsWhole) (arg12 : Memref sig .tc .vmem S1x8x128 .f32) (harg12 : arg12.IsWhole) (arg13 : Memref sig .tc .vmem S128x4 .bf16) (harg13 : arg13.IsWhole) (arg14 : Memref sig .tc .vmem S128x4 .bf16) (harg14 : arg14.IsWhole) (arg15 : Memref sig .tc .vmem S128x512 .bf16) (harg15 : arg15.IsWhole) (hc0 : cond0_0 i)
    (x0 : Vec F S1x128x128 .f32) (x1 : Vec F S1x128x4096 .f32) (x2 : Vec F S1024 .i32) (x3 : Vec F S1024 .i32) (x4 : Vec F S1024 .i32) (x5 : Vec F S1x8x128 .i32) (x6 : Vec F S128x4 .f32) (x7 : Vec F S128x4 .f32) (x8 : Vec F S4096x512 .bf16) (x9 : Vec F S4 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay5 x1 x8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg8.read_unread, harg9.read_unread, harg10.read_unread,
    View.ld_unit_zero (S := S1x128x128) hz3, View.ld_unit_zero (S := S1x128x4096) hz3, View.ld_unit_zero (S := S128x4) hz2,
    View.ld_unit_zero (S := S4096x512) hz2]

/-- Case A's output block: the edits read the tables this same run has just stored. -/
theorem outA (c : Dev nD) (i : grid0.Coords) (arg2 : Memref sig .tc .vmem S1x128x128 .f32) (harg2 : arg2.IsWhole) (arg3 : Memref sig .tc .vmem S1x128x4096 .f32) (harg3 : arg3.IsWhole) (arg4 : Memref sig .tc .vmem S1024 .i32) (harg4 : arg4.IsWhole) (arg5 : Memref sig .tc .vmem S1024 .i32) (harg5 : arg5.IsWhole) (arg6 : Memref sig .tc .vmem S1024 .i32) (harg6 : arg6.IsWhole) (arg7 : Memref sig .tc .vmem S1x8x128 .i32) (harg7 : arg7.IsWhole) (arg8 : Memref sig .tc .vmem S128x4 .f32) (harg8 : arg8.IsWhole) (arg9 : Memref sig .tc .vmem S128x4 .f32) (harg9 : arg9.IsWhole) (arg10 : Memref sig .tc .vmem S4096x512 .bf16) (harg10 : arg10.IsWhole) (arg11 : Memref sig .tc .vmem S4 .f32) (harg11 : arg11.IsWhole) (arg12 : Memref sig .tc .vmem S1x8x128 .f32) (harg12 : arg12.IsWhole) (arg13 : Memref sig .tc .vmem S128x4 .bf16) (harg13 : arg13.IsWhole) (arg14 : Memref sig .tc .vmem S128x4 .bf16) (harg14 : arg14.IsWhole) (arg15 : Memref sig .tc .vmem S128x512 .bf16) (harg15 : arg15.IsWhole) (hc0 : cond0_0 i)
    (x0 : Vec F S1x128x128 .f32) (x1 : Vec F S1x128x4096 .f32) (x2 : Vec F S1024 .i32) (x3 : Vec F S1024 .i32) (x4 : Vec F S1024 .i32) (x5 : Vec F S1x8x128 .i32) (x6 : Vec F S128x4 .f32) (x7 : Vec F S128x4 .f32) (x8 : Vec F S4096x512 .bf16) (x9 : Vec F S4 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = blockOut x2 x3 x4 x5 x9 (k0_pay3 x0 x6) (k0_pay4 x0 x7) (k0_pay5 x1 x8) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz3]
  unfold blockOut
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S128x4) _ hz2, View.readCov_unit_zero (S := S128x512) _ hz2,
    View.ld_unit_zero (S := S1x128x128) hz3, View.ld_unit_zero (S := S1x128x4096) hz3, View.ld_unit_zero (S := S128x4) hz2,
    View.ld_unit_zero (S := S4096x512) hz2, View.ld_unit_zero (S := S1024) hz1, View.ld_unit_zero (S := S4) hz1,
    View.ld_unit_zero (S := S1x8x128) hz3]

/-- Case B's output block: the edits read the tables the point before left (xs0, xs1, xs2). -/
theorem outB (c : Dev nD) (i : grid0.Coords) (arg2 : Memref sig .tc .vmem S1x128x128 .f32) (harg2 : arg2.IsWhole) (arg3 : Memref sig .tc .vmem S1x128x4096 .f32) (harg3 : arg3.IsWhole) (arg4 : Memref sig .tc .vmem S1024 .i32) (harg4 : arg4.IsWhole) (arg5 : Memref sig .tc .vmem S1024 .i32) (harg5 : arg5.IsWhole) (arg6 : Memref sig .tc .vmem S1024 .i32) (harg6 : arg6.IsWhole) (arg7 : Memref sig .tc .vmem S1x8x128 .i32) (harg7 : arg7.IsWhole) (arg8 : Memref sig .tc .vmem S128x4 .f32) (harg8 : arg8.IsWhole) (arg9 : Memref sig .tc .vmem S128x4 .f32) (harg9 : arg9.IsWhole) (arg10 : Memref sig .tc .vmem S4096x512 .bf16) (harg10 : arg10.IsWhole) (arg11 : Memref sig .tc .vmem S4 .f32) (harg11 : arg11.IsWhole) (arg12 : Memref sig .tc .vmem S1x8x128 .f32) (harg12 : arg12.IsWhole) (arg13 : Memref sig .tc .vmem S128x4 .bf16) (harg13 : arg13.IsWhole) (arg14 : Memref sig .tc .vmem S128x4 .bf16) (harg14 : arg14.IsWhole) (arg15 : Memref sig .tc .vmem S128x512 .bf16) (harg15 : arg15.IsWhole) (hc0 : ¬cond0_0 i)
    (x0 : Vec F S1x128x128 .f32) (x1 : Vec F S1x128x4096 .f32) (x2 : Vec F S1024 .i32) (x3 : Vec F S1024 .i32) (x4 : Vec F S1024 .i32) (x5 : Vec F S1x8x128 .i32) (x6 : Vec F S128x4 .f32) (x7 : Vec F S128x4 .f32) (x8 : Vec F S4096x512 .bf16) (x9 : Vec F S4 .f32) (xs0 : Vec F S128x4 .bf16) (xs1 : Vec F S128x4 .bf16) (xs2 : Vec F S128x512 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 = blockOut x2 x3 x4 x5 x9 xs0 xs1 xs2 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  unfold kernelRun0_B
  dsimp only
  sl_unfold_words
  rw [View.canon_unit_zero hz3]
  unfold blockOut
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread, harg15.read_unread,
    View.readCov_unit_zero (S := S128x4) _ hz2, View.readCov_unit_zero (S := S128x512) _ hz2,
    View.ld_unit_zero (S := S1x128x128) hz3, View.ld_unit_zero (S := S1x128x4096) hz3, View.ld_unit_zero (S := S128x4) hz2,
    View.ld_unit_zero (S := S4096x512) hz2, View.ld_unit_zero (S := S128x512) hz2, View.ld_unit_zero (S := S1024) hz1, View.ld_unit_zero (S := S4) hz1,
    View.ld_unit_zero (S := S1x8x128) hz3]

end Cert.EditKernel

end
-- ==== Proof.KHost.lean ====
/-
  What the arrays the kernel region finds hold, at an index, in terms of the argument arrays.

  Before the region the host flattens the edge features [32,128,128,32] to [32,128,4096] (column j*32 + e), widens
  the feasibility mask to 32-bit words and lays it out [32,64,128] (edit r*128 + l), cuts the weight matrix's first
  two bands [128,4] out of its 288 rows, and builds the block-diagonal table [4096,512]: entry (j'*32 + e, j*4 + c)
  is the identity's entry (j', j), one or zero, times the third band's entry (e, c).
-/
import proofs.«404348_j52080773431693_3_alg».proof.Proof.Gen.KernelIdeal.Frame
import proofs.«404348_j52080773431693_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

noncomputable section

namespace Cert.EditKernel

open Idealize.ShloMosaic Idealize.ShloMosaic.TcCoe Idealize.ShloMosaic.ValueIdx Cert.KernelIdeal Cert.KernelIdeal.Gen Cert.EditSpec
open Idealize.SL.Sem

variable (m : (ℓ : Loc nD τ sig) → Buf (Elt Ideal) ℓ)

/-- Column j * 32 + e of the flattened edge features: node j, feature e. -/
def flatE (j : Fin 128) (e : Fin 32) : Fin 4096 := ⟨j.val * 32 + e.val, by omega⟩
/-- Edit r * 128 + l of the 8192 edits, laid out [64,128]. -/
def editOf (r : Fin 64) (l : Fin 128) : Fin 8192 := ⟨r.val * 128 + l.val, by omega⟩
/-- Column 4 * j + c of the 512 table columns: node j, channel c. -/
def colOf (j : Fin 128) (c : Fin 4) : Fin 512 := ⟨j.val * 4 + c.val, by omega⟩

/-- The flattened edge features at (b, n, j*32 + e) are the edge features at (b, n, j, e). -/
theorem edges_apply (c : Dev nD) (b : Fin 32) (n j : Fin 128) (e : Fin 32) :
    (V m c main_v11 : FVec Ideal S32x128x4096 .f32) (ix3 b n (flatE j e))
      = (m ((c : Thread nD τ).loc main_arg1) : FVec Ideal S32x128x128x32 .f32) (ix4 b n j e) := by
  have e1 : (V m c main_v11 : S32x128x4096.Idx → EReal)
      = shapeCast S32x128x4096 (m ((c : Thread nD τ).loc main_arg1) : FVec Ideal S32x128x128x32 .f32) shapeCasts_S32x128x128x32_S32x128x4096 := by
    dsimp only [Gen.V, Gen.V0]
    simp only [Gen.hostOps0, Gen.hostOps0_1, Gen.hostOps0_2, List.flatten_cons, List.flatten_nil, List.append_nil, List.cons_append, List.nil_append]
    after_results <;> rfl
  refine (congrFun e1 _).trans (shapeCast_apply _ _ _ _ ?_)
  show ((⟨4, ![32, 128, 128, 32]⟩ : Shape).rowMajor (ix4 b n j e)).val = ((⟨3, ![32, 128, 4096]⟩ : Shape).rowMajor (ix3 b n (flatE j e))).val
  rw [Shape.rowMajor_val_four, Shape.rowMajor_val_three]
  show ((b.val * 128 + n.val) * 128 + j.val) * 32 + e.val = (b.val * 128 + n.val) * 4096 + (j.val * 32 + e.val)
  omega

/-- The widened mask at (b, r, l) is the feasibility bit of edit r*128 + l, as a 32-bit word. -/
theorem feas_apply (c : Dev nD) (b : Fin 32) (r : Fin 64) (l : Fin 128) :
    (V m c main_v13 : IVec S32x64x128 32) (ix3 b r l)
      = ((m ((c : Thread nD τ).loc main_arg9) : IVec S32x8192 1) (ix2 b (editOf r l))).setWidth 32 := by
  have e1 : (V m c main_v13 : S32x64x128.Idx → BitVec 32)
      = shapeCast S32x64x128 (extui 32 (m ((c : Thread nD τ).loc main_arg9) : IVec S32x8192 1) natLt_1_32) shapeCasts_S32x8192_S32x64x128 := by
    dsimp only [Gen.V, Gen.V0]
    simp only [Gen.hostOps0, Gen.hostOps0_1, Gen.hostOps0_2, List.flatten_cons, List.flatten_nil, List.append_nil, List.cons_append, List.nil_append]
    after_results <;> rfl
  refine (congrFun e1 _).trans ((shapeCast_apply _ _ _ (ix2 b (editOf r l)) ?_).trans rfl)
  show ((⟨2, ![32, 8192]⟩ : Shape).rowMajor (ix2 b (editOf r l))).val = ((⟨3, ![32, 64, 128]⟩ : Shape).rowMajor (ix3 b r l)).val
  rw [Shape.rowMajor_val_two, Shape.rowMajor_val_three]
  show b.val * 8192 + (r.val * 128 + l.val) = (b.val * 64 + r.val) * 128 + l.val
  omega

/-- The first weight band. -/
theorem band1_apply (c : Dev nD) (d : Fin 128) (k : Fin 4) :
    (V m c main_v0 : FVec Ideal S128x4 .f32) (ix2 d k)
      = (m ((c : Thread nD τ).loc main_arg2) : FVec Ideal S288x4 .f32) (ix2 (band1 d) k) := by
  have e1 : (V m c main_v0 : S128x4.Idx → EReal)
      = extractStridedSlice S128x4 ![0, 0] (m ((c : Thread nD τ).loc main_arg2) : FVec Ideal S288x4 .f32) slices_S288x4_S128x4_0_0 := by
    dsimp only [Gen.V, Gen.V0]
    simp only [Gen.hostOps0, Gen.hostOps0_1, Gen.hostOps0_2, List.flatten_cons, List.flatten_nil, List.append_nil, List.cons_append, List.nil_append]
    after_results <;> rfl
  refine (congrFun e1 _).trans (extractStridedSlice_apply _ _ _ _ (ix2 (band1 d) k) fun a => ?_)
  match a with
  | ⟨0, _⟩ => show d.val = 0 + d.val; omega
  | ⟨1, _⟩ => show k.val = 0 + k.val; omega

/-- The second weight band. -/
theorem band2_apply (c : Dev nD) (d : Fin 128) (k : Fin 4) :
    (V m c main_v1 : FVec Ideal S128x4 .f32) (ix2 d k)
      = (m ((c : Thread nD τ).loc main_arg2) : FVec Ideal S288x4 .f32) (ix2 (band2 d) k) := by
  have e1 : (V m c main_v1 : S128x4.Idx → EReal)
      = extractStridedSlice S128x4 ![128, 0] (m ((c : Thread nD τ).loc main_arg2) : FVec Ideal S288x4 .f32) slices_S288x4_S128x4_128_0 := by
    dsimp only [Gen.V, Gen.V0]
    simp only [Gen.hostOps0, Gen.hostOps0_1, Gen.hostOps0_2, List.flatten_cons, List.flatten_nil, List.append_nil, List.cons_append, List.nil_append]
    after_results <;> rfl
  refine (congrFun e1 _).trans (extractStridedSlice_apply _ _ _ _ (ix2 (band2 d) k) fun a => ?_)
  match a with
  | ⟨0, _⟩ => show 128 + d.val = 128 + d.val; rfl
  | ⟨1, _⟩ => show k.val = 0 + k.val; omega

/-- The identity's entry as an extended real: one where the two coordinates agree, zero elsewhere. -/
theorem eye_val (a b : Fin 128) :
    (((IntOp.cmpi .eq (IntOp.addi (BitVec.ofNat 32 a.val) 0#32) (BitVec.ofNat 32 b.val)).toNat : ℝ) : EReal)
      = if a = b then 1 else 0 := by
  have h0 : IntOp.addi (BitVec.ofNat 32 a.val) 0#32 = BitVec.ofNat 32 a.val := by
    unfold IntOp.addi; exact BitVec.add_zero _
  rw [h0]
  by_cases h : a = b
  · subst h
    rw [if_pos rfl, StableHlo.Predicate.cmpi_eq_iff.mpr rfl]
    show (((1 : ℕ) : ℝ) : EReal) = 1
    rw [Nat.cast_one, EReal.coe_one]
  · have hne : ¬ IntOp.cmpi .eq (BitVec.ofNat 32 a.val) (BitVec.ofNat 32 b.val) = 1#1 := by
      rw [StableHlo.Predicate.cmpi_eq_iff]
      intro hh
      apply h
      have h1 := congrArg BitVec.toNat hh
      simp only [BitVec.toNat_ofNat] at h1
      have ha := a.isLt
      have hb := b.isLt
      apply Fin.ext; omega
    rw [if_neg h, eq_zero_of_ne_one hne]
    show (((0 : ℕ) : ℝ) : EReal) = 0
    rw [Nat.cast_zero, EReal.coe_zero]

/-- The block-diagonal table: the identity's entry times the third band's. -/
theorem table_apply (c : Dev nD) (j' j : Fin 128) (e : Fin 32) (k : Fin 4) :
    (V m c main_v10 : FVec Ideal S4096x512 .bf16) (ix2 (flatE j' e) (colOf j k))
      = (if j' = j then (1 : EReal) else 0)
          * (m ((c : Thread nD τ).loc main_arg2) : FVec Ideal S288x4 .f32) (ix2 (band3 e) k) := by
  have e1 : (V m c main_v10 : FVec Ideal S4096x512 .bf16)
      = truncf (F := Ideal) (φ := .f32) .bf16
          (shapeCast S4096x512
            (mulf (F := Ideal) (φ := .f32)
              (broadcastInDim S128x32x128x4 ![0, 1, 2, 3] bcast_S128x1x128x1_S128x32x128x4_0_1_2_3
                (broadcastInDim S128x1x128x1 ![0, 2] bcast_S128x128_S128x1x128x1_0_2
                  (uitofp (F := Ideal) .f32
                    (cmpi .eq (addi (iotaInDim S128x128 32 0) (broadcastInDim S128x128 ![] bcast_S_S128x128 (constantI S_ 32 0#32)))
                      (iotaInDim S128x128 32 1)))))
              (broadcastInDim S128x32x128x4 ![0, 1, 2, 3] bcast_S1x32x1x4_S128x32x128x4_0_1_2_3
                (broadcastInDim S1x32x1x4 ![1, 3] bcast_S32x4_S1x32x1x4_1_3
                  (extractStridedSlice S32x4 ![256, 0] (m ((c : Thread nD τ).loc main_arg2) : FVec Ideal S288x4 .f32) slices_S288x4_S32x4_256_0))))
            shapeCasts_S128x32x128x4_S4096x512)
          bitsLt_bf16_f32 := by
    dsimp only [Gen.V, Gen.V0]
    simp only [Gen.hostOps0, Gen.hostOps0_1, Gen.hostOps0_2, List.flatten_cons, List.flatten_nil, List.append_nil, List.cons_append, List.nil_append]
    after_results
    simp only [StableHlo.TRef.ofBuf, StableHlo.TRef.toBuf, cast_eq]
    rfl
  refine (congrFun e1 _).trans ?_
  refine (truncf_apply (φ := .f32) (ψ := .bf16) _ bitsLt_bf16_f32 _).trans ?_
  refine (shapeCast_apply _ _ _ (ix4 j' e j k) ?_).trans ?_
  · show ((⟨4, ![128, 32, 128, 4]⟩ : Shape).rowMajor (ix4 j' e j k)).val = ((⟨2, ![4096, 512]⟩ : Shape).rowMajor (ix2 (flatE j' e) (colOf j k))).val
    rw [Shape.rowMajor_val_four, Shape.rowMajor_val_two]
    show ((j'.val * 32 + e.val) * 128 + j.val) * 4 + k.val = (j'.val * 32 + e.val) * 512 + (j.val * 4 + k.val)
    omega
  refine (mulf_apply _ _ _).trans (congrArg₂ (· * ·) ?_ ?_)
  · refine (broadcastInDim_apply _ _ _ _ (ix4 j' (0 : Fin 1) j (0 : Fin 1)) fun a => ?_).trans ?_
    · match a with
      | ⟨0, _⟩ => rfl
      | ⟨1, _⟩ => rfl
      | ⟨2, _⟩ => rfl
      | ⟨3, _⟩ => rfl
    refine (broadcastInDim_apply _ _ _ _ (ix2 j' j) fun a => ?_).trans ?_
    · match a with
      | ⟨0, _⟩ => rfl
      | ⟨1, _⟩ => rfl
    exact eye_val j' j
  · refine (broadcastInDim_apply _ _ _ _ (ix4 (0 : Fin 1) e (0 : Fin 1) k) fun a => ?_).trans ?_
    · match a with
      | ⟨0, _⟩ => rfl
      | ⟨1, _⟩ => rfl
      | ⟨2, _⟩ => rfl
      | ⟨3, _⟩ => rfl
    refine (broadcastInDim_apply _ _ _ _ (ix2 e k) fun a => ?_).trans ?_
    · match a with
      | ⟨0, _⟩ => rfl
      | ⟨1, _⟩ => rfl
    refine extractStridedSlice_apply _ _ _ _ (ix2 (band3 e) k) fun a => ?_
    match a with
    | ⟨0, _⟩ => rfl
    | ⟨1, _⟩ => show k.val = 0 + k.val; omega

end Cert.EditKernel

end
-- ==== Proof.KBlocks.lean ====
/-
  The input blocks of a grid point, read at an index.

  The grid is 32 batches by 8 chunks; point t is batch t / 8, chunk t % 8. The node block and the flattened edge
  block of a point are row t / 8 of their arrays, whatever the chunk; the three word blocks are words
  (t % 8) * 1024 .. + 1023 of the 8192 edits; the feasibility block is rows (t % 8) * 8 .. + 7 of batch t / 8's 64
  rows of 128; the two weight bands, the block-diagonal table and the bias are whole arrays at every point.
-/
import proofs.«404348_j52080773431693_3_alg».proof.Proof.Gen.KernelIdeal.Frame
import Idealize.ShloMosaic.Lib.Pipeline.Value
import Idealize.ShloMosaic.Lib.ValueIdx

noncomputable section

namespace Cert.EditKernel

open Idealize.ShloMosaic Idealize.ShloMosaic.TcCoe Idealize.ShloMosaic.ValueIdx Cert.KernelIdeal Cert.KernelIdeal.Gen
open Idealize.SL.Sem

variable {F : FTy → Type} [FloatOps F]
variable (m : (ℓ : Loc nD τ sig) → Buf (Elt F) ℓ)

theorem N256 : cfg0.N = 256 := N_0

/-- The batch of a grid point. -/
def batchOf (t : Fin cfg0.N) : Fin 32 := ⟨t.val / 8, by have := t.isLt; have := N256; omega⟩
/-- The chunk of a grid point. -/
def chunkOf (t : Fin cfg0.N) : Fin 8 := ⟨t.val % 8, Nat.mod_lt _ (by decide)⟩
/-- Word p of point t's chunk, among the 8192 edits. -/
def editAt (t : Fin cfg0.N) (p : Fin 1024) : Fin 8192 := ⟨t.val % 8 * 1024 + p.val, by have := Nat.mod_lt t.val (show 0 < 8 by decide); omega⟩
/-- Row r of point t's chunk, among a batch's 64 rows of 128 edits. -/
def rowAt (t : Fin cfg0.N) (r : Fin 8) : Fin 64 := ⟨t.val % 8 * 8 + r.val, by have := Nat.mod_lt t.val (show 0 < 8 by decide); omega⟩

/-- The windows' index maps, decided once over the 256 points. -/
theorem idx_facts : ∀ t : Fin cfg0.N,
    win0_0.index t (0 : Fin 3) = t.val / 8
    ∧ win0_0.index t (1 : Fin 3) = 0
    ∧ win0_0.index t (2 : Fin 3) = 0
    ∧ win0_1.index t (0 : Fin 3) = t.val / 8
    ∧ win0_1.index t (1 : Fin 3) = 0
    ∧ win0_1.index t (2 : Fin 3) = 0
    ∧ win0_2.index t (0 : Fin 1) = t.val % 8
    ∧ win0_3.index t (0 : Fin 1) = t.val % 8
    ∧ win0_4.index t (0 : Fin 1) = t.val % 8
    ∧ win0_5.index t (0 : Fin 3) = t.val / 8
    ∧ win0_5.index t (1 : Fin 3) = t.val % 8
    ∧ win0_5.index t (2 : Fin 3) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 3) = t.val / 8
    ∧ win0_10.index t (1 : Fin 3) = t.val % 8
    ∧ win0_10.index t (2 : Fin 3) = 0 :=
  (by decide +kernel : ∀ t : Fin grid0.N, _)

/-- Window 0's block at point t, at a block index, is its array at the index the window's map gives. -/
theorem nodes_blk (c : Dev nD) (t : Fin cfg0.N) (n d : Fin 128) :
    (iblk m c 0 t : Vec F S1x128x128 .f32) (ix3 (0 : Fin 1) n d) = (V m c main_arg0 : FVec F S32x128x128 .f32) (ix3 (batchOf t) n d) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 128 + 1 * n.val = n.val; omega
  | ⟨2, _⟩ => show win0_0.index t (2 : Fin 3) * 128 + 1 * d.val = d.val; omega

/-- Window 1's block at point t, at a block index, is its array at the index the window's map gives. -/
theorem edges_blk (c : Dev nD) (t : Fin cfg0.N) (n : Fin 128) (k : Fin 4096) :
    (iblk m c 1 t : Vec F S1x128x4096 .f32) (ix3 (0 : Fin 1) n k) = (V m c main_v11 : FVec F S32x128x4096 .f32) (ix3 (batchOf t) n k) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_v11) (funext fun a => Fin.ext ?_)
  match a with
  | ⟨0, _⟩ => show win0_1.index t (0 : Fin 3) * 1 + 1 * 0 = t.val / 8; omega
  | ⟨1, _⟩ => show win0_1.index t (1 : Fin 3) * 128 + 1 * n.val = n.val; omega
  | ⟨2, _⟩ => show win0_1.index t (2 : Fin 3) * 4096 + 1 * k.val = k.val; omega

/-- Window 2's block at point t, at a block index, is its array at the index the window's map gives. -/
theorem wordI_blk (c : Dev nD) (t : Fin cfg0.N) (p : Fin 1024) :
    (iblk m c 2 t : Vec F S1024 .i32) (ix1 p) = (V m c main_arg6 : IVec S8192 32) (ix1 (editAt t p)) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_arg6) (funext fun a => Fin.ext ?_)
  match a with
  | ⟨0, _⟩ => show win0_2.index t (0 : Fin 1) * 1024 + 1 * p.val = t.val % 8 * 1024 + p.val; omega

/-- Window 3's block at point t, at a block index, is its array at the index the window's map gives. -/
theorem wordJ_blk (c : Dev nD) (t : Fin cfg0.N) (p : Fin 1024) :
    (iblk m c 3 t : Vec F S1024 .i32) (ix1 p) = (V m c main_arg7 : IVec S8192 32) (ix1 (editAt t p)) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_arg7) (funext fun a => Fin.ext ?_)
  match a with
  | ⟨0, _⟩ => show win0_3.index t (0 : Fin 1) * 1024 + 1 * p.val = t.val % 8 * 1024 + p.val; omega

/-- Window 4's block at point t, at a block index, is its array at the index the window's map gives. -/
theorem wordC_blk (c : Dev nD) (t : Fin cfg0.N) (p : Fin 1024) :
    (iblk m c 4 t : Vec F S1024 .i32) (ix1 p) = (V m c main_arg8 : IVec S8192 32) (ix1 (editAt t p)) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_arg8) (funext fun a => Fin.ext ?_)
  match a with
  | ⟨0, _⟩ => show win0_4.index t (0 : Fin 1) * 1024 + 1 * p.val = t.val % 8 * 1024 + p.val; omega

/-- Window 5's block at point t, at a block index, is its array at the index the window's map gives. -/
theorem feas_blk (c : Dev nD) (t : Fin cfg0.N) (r : Fin 8) (l : Fin 128) :
    (iblk m c 5 t : Vec F S1x8x128 .i32) (ix3 (0 : Fin 1) r l) = (V m c main_v13 : IVec S32x64x128 32) (ix3 (batchOf t) (rowAt t r) l) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_v13) (funext fun a => Fin.ext ?_)
  match a with
  | ⟨0, _⟩ => show win0_5.index t (0 : Fin 3) * 1 + 1 * 0 = t.val / 8; omega
  | ⟨1, _⟩ => show win0_5.index t (1 : Fin 3) * 8 + 1 * r.val = t.val % 8 * 8 + r.val; omega
  | ⟨2, _⟩ => show win0_5.index t (2 : Fin 3) * 128 + 1 * l.val = l.val; omega

/-- Window 6's block at point t, at a block index, is its array at the index the window's map gives. -/
theorem band1_blk (c : Dev nD) (t : Fin cfg0.N) (d : Fin 128) (k : Fin 4) :
    (iblk m c 6 t : Vec F S128x4 .f32) (ix2 d k) = (V m c main_v0 : FVec F S128x4 .f32) (ix2 d k) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_v0) (funext fun a => Fin.ext ?_)
  match a with
  | ⟨0, _⟩ => show win0_6.index t (0 : Fin 2) * 128 + 1 * d.val = d.val; omega
  | ⟨1, _⟩ => show win0_6.index t (1 : Fin 2) * 4 + 1 * k.val = k.val; omega

/-- Window 7's block at point t, at a block index, is its array at the index the window's map gives. -/
theorem band2_blk (c : Dev nD) (t : Fin cfg0.N) (d : Fin 128) (k : Fin 4) :
    (iblk m c 7 t : Vec F S128x4 .f32) (ix2 d k) = (V m c main_v1 : FVec F S128x4 .f32) (ix2 d k) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_v1) (funext fun a => Fin.ext ?_)
  match a with
  | ⟨0, _⟩ => show win0_7.index t (0 : Fin 2) * 128 + 1 * d.val = d.val; omega
  | ⟨1, _⟩ => show win0_7.index t (1 : Fin 2) * 4 + 1 * k.val = k.val; omega

/-- Window 8's block at point t, at a block index, is its array at the index the window's map gives. -/
theorem table_blk (c : Dev nD) (t : Fin cfg0.N) (k : Fin 4096) (q : Fin 512) :
    (iblk m c 8 t : Vec F S4096x512 .bf16) (ix2 k q) = (V m c main_v10 : FVec F S4096x512 .bf16) (ix2 k q) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_v10) (funext fun a => Fin.ext ?_)
  match a with
  | ⟨0, _⟩ => show win0_8.index t (0 : Fin 2) * 4096 + 1 * k.val = k.val; omega
  | ⟨1, _⟩ => show win0_8.index t (1 : Fin 2) * 512 + 1 * q.val = q.val; omega

/-- Window 9's block at point t, at a block index, is its array at the index the window's map gives. -/
theorem bias_blk (c : Dev nD) (t : Fin cfg0.N) (k : Fin 4) :
    (iblk m c 9 t : Vec F S4 .f32) (ix1 k) = (V m c main_arg3 : FVec F S4 .f32) (ix1 k) := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  unfold iblk
  rw [View.read_apply]
  refine congrArg (V m c main_arg3) (funext fun a => Fin.ext ?_)
  match a with
  | ⟨0, _⟩ => show win0_9.index t (0 : Fin 1) * 4 + 1 * k.val = k.val; omega

end Cert.EditKernel

end
-- ==== Proof.KTables.lean ====
/-
  The three projected tables a batch's chunks read, as functions of the argument arrays.

  For batch b: R1[i,k] = sum over d of h_nodes[b,i,d] * W[d,k]; R2[j,k] = sum over d of h_nodes[b,j,d] * W[128+d,k];
  Qt[i, 4j+k] = sum over the 4096 flattened edge columns of edges[b,i,.] times the block-diagonal table, which
  collapses to sum over e of h_edges[b,i,j,e] * W[256+e,k]: the table's entry (j'*32+e, 4j+k) is zero unless j' = j,
  and on the extended reals a product with zero is zero and zero is neutral for the sum.
  The kernel stores the tables at the first chunk of a batch and carries them, untouched, through the batch's other
  seven chunks: by induction over the grid points, after any point the scratch holds its batch's tables.
-/
import proofs.«404348_j52080773431693_3_alg».proof.Proof.KPay
import proofs.«404348_j52080773431693_3_alg».proof.Proof.KPieces
import proofs.«404348_j52080773431693_3_alg».proof.Proof.KHost
import proofs.«404348_j52080773431693_3_alg».proof.Proof.KBlocks

set_option maxRecDepth 16384

noncomputable section

namespace Cert.EditKernel

open Idealize.ShloMosaic Idealize.ShloMosaic.TcCoe Idealize.ShloMosaic.ValueIdx Cert.KernelIdeal Cert.KernelIdeal.Gen Cert.EditSpec
open Idealize.SL.Sem

variable (m : (ℓ : Loc nD τ sig) → Buf (Elt Ideal) ℓ)

/-- The arrays the region finds, each named at its literal type. -/
abbrev vNodes (c : Dev nD) : FVec Ideal S32x128x128 .f32 := V m c main_arg0
abbrev vEdges (c : Dev nD) : FVec Ideal S32x128x4096 .f32 := V m c main_v11
abbrev vBand1 (c : Dev nD) : FVec Ideal S128x4 .f32 := V m c main_v0
abbrev vBand2 (c : Dev nD) : FVec Ideal S128x4 .f32 := V m c main_v1
abbrev vTable (c : Dev nD) : FVec Ideal S4096x512 .bf16 := V m c main_v10
/-- The argument arrays, each named at its literal type. -/
abbrev aNodes (c : Dev nD) : FVec Ideal S32x128x128 .f32 := m ((c : Thread nD τ).loc main_arg0)
abbrev aEdges (c : Dev nD) : FVec Ideal S32x128x128x32 .f32 := m ((c : Thread nD τ).loc main_arg1)
abbrev aW (c : Dev nD) : FVec Ideal S288x4 .f32 := m ((c : Thread nD τ).loc main_arg2)
abbrev aBias (c : Dev nD) : FVec Ideal S4 .f32 := m ((c : Thread nD τ).loc main_arg3)
abbrev aI (c : Dev nD) : IVec S8192 32 := m ((c : Thread nD τ).loc main_arg6)
abbrev aJ (c : Dev nD) : IVec S8192 32 := m ((c : Thread nD τ).loc main_arg7)
abbrev aC (c : Dev nD) : IVec S8192 32 := m ((c : Thread nD τ).loc main_arg8)
abbrev aFeas (c : Dev nD) : IVec S32x8192 1 := m ((c : Thread nD τ).loc main_arg9)

/-- The host reads, restated over the named arrays. -/
theorem vNodes_eq (c : Dev nD) : vNodes m c = aNodes m c := V_main_arg0 m c
theorem vEdges_apply (c : Dev nD) (b : Fin 32) (n j : Fin 128) (e : Fin 32) :
    vEdges m c (ix3 b n (flatE j e)) = aEdges m c (ix4 b n j e) := edges_apply m c b n j e
theorem vBand1_apply (c : Dev nD) (d : Fin 128) (k : Fin 4) : vBand1 m c (ix2 d k) = aW m c (ix2 (band1 d) k) :=
  band1_apply m c d k
theorem vBand2_apply (c : Dev nD) (d : Fin 128) (k : Fin 4) : vBand2 m c (ix2 d k) = aW m c (ix2 (band2 d) k) :=
  band2_apply m c d k
theorem vTable_apply (c : Dev nD) (j' j : Fin 128) (e : Fin 32) (k : Fin 4) :
    vTable m c (ix2 (flatE j' e) (colOf j k)) = (if j' = j then (1 : EReal) else 0) * aW m c (ix2 (band3 e) k) :=
  table_apply m c j' j e k

/-- A sum over the 4096 flattened edge columns is a double sum over (node, feature). -/
theorem sum_flat (f : Fin 4096 → EReal) : ∑ k : Fin 4096, f k = ∑ j : Fin 128, ∑ e : Fin 32, f (flatE j e) := by
  rw [← Fintype.sum_prod_type' (f := fun j e => f (flatE j e))]
  rw [← Equiv.sum_comp (finProdFinEquiv (m := 128) (n := 32)) f]
  refine Finset.sum_congr rfl fun p _ => congrArg f (Fin.ext ?_)
  show p.2.val + 32 * p.1.val = p.1.val * 32 + p.2.val
  omega

/-- The first node table of batch b, over the arrays the region finds. -/
def tab1 (c : Dev nD) (b : Fin 32) (i : Fin 128) (k : Fin 4) : EReal :=
  ∑ d : Fin 128, vNodes m c (ix3 b i d) * vBand1 m c (ix2 d k)
/-- The second node table of batch b. -/
def tab2 (c : Dev nD) (b : Fin 32) (i : Fin 128) (k : Fin 4) : EReal :=
  ∑ d : Fin 128, vNodes m c (ix3 b i d) * vBand2 m c (ix2 d k)
/-- The edge table of batch b. -/
def tabE (c : Dev nD) (b : Fin 32) (i : Fin 128) (q : Fin 512) : EReal :=
  ∑ k : Fin 4096, vEdges m c (ix3 b i k) * vTable m c (ix2 k q)

/-- The first node table in terms of the arguments: node i's features against the first weight band. -/
theorem tab1_eq (c : Dev nD) (b : Fin 32) (i : Fin 128) (k : Fin 4) :
    tab1 m c b i k = ∑ d : Fin 128, aNodes m c (ix3 b i d) * aW m c (ix2 (band1 d) k) := by
  unfold tab1
  refine Finset.sum_congr rfl fun d _ => ?_
  rw [vBand1_apply m c d k, vNodes_eq m c]

/-- The second node table in terms of the arguments. -/
theorem tab2_eq (c : Dev nD) (b : Fin 32) (i : Fin 128) (k : Fin 4) :
    tab2 m c b i k = ∑ d : Fin 128, aNodes m c (ix3 b i d) * aW m c (ix2 (band2 d) k) := by
  unfold tab2
  refine Finset.sum_congr rfl fun d _ => ?_
  rw [vBand2_apply m c d k, vNodes_eq m c]

/-- The edge table at column 4j + k collapses to edge (i, j)'s features against the third weight band. -/
theorem tabE_eq (c : Dev nD) (b : Fin 32) (i j : Fin 128) (k : Fin 4) :
    tabE m c b i (colOf j k) = ∑ e : Fin 32, aEdges m c (ix4 b i j e) * aW m c (ix2 (band3 e) k) := by
  unfold tabE
  rw [sum_flat]
  rw [Finset.sum_eq_single j]
  · refine Finset.sum_congr rfl fun e _ => ?_
    rw [vEdges_apply m c b i j e, vTable_apply m c j j e k, if_pos rfl, one_mul]
  · intro j' _ hj'
    refine Finset.sum_eq_zero fun e _ => ?_
    rw [vTable_apply m c j' j e k, if_neg hj', zero_mul, mul_zero]
  · intro hj; exact absurd (Finset.mem_univ j) hj

/-- After any point the carried scratch holds its batch's three tables. -/
theorem tables_at (c : Dev nD) : ∀ (n : ℕ) (t : Fin cfg0.N), t.val = n →
    (∀ (i : Fin 128) (k : Fin 4), (outsAt0 m c t.val t.isLt).2.1 (ix2 i k) = tab1 m c (batchOf t) i k)
    ∧ (∀ (i : Fin 128) (k : Fin 4), (outsAt0 m c t.val t.isLt).2.2.1 (ix2 i k) = tab2 m c (batchOf t) i k)
    ∧ (∀ (i : Fin 128) (q : Fin 512), (outsAt0 m c t.val t.isLt).2.2.2 (ix2 i q) = tabE m c (batchOf t) i q) := by
  intro n
  induction n with
  | zero =>
    intro t ht
    have h0 : t.val % 8 = 0 := by omega
    rw [outsAt0_A m c t h0]
    dsimp only
    refine ⟨fun i k => ?_, fun i k => ?_, fun i q => ?_⟩
    · rw [tableA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
      rw [proj1_apply]; unfold tab1
      refine Finset.sum_congr rfl fun d _ => ?_
      rw [nodes_blk m c t i d, band1_blk m c t d k]
    · rw [tableA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
      rw [proj2_apply]; unfold tab2
      refine Finset.sum_congr rfl fun d _ => ?_
      rw [nodes_blk m c t i d, band2_blk m c t d k]
    · rw [tableA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
      rw [projE_apply]; unfold tabE
      refine Finset.sum_congr rfl fun k _ => ?_
      rw [edges_blk m c t i k, table_blk m c t k q]
  | succ n ih =>
    intro t ht
    by_cases h0 : t.val % 8 = 0
    · rw [outsAt0_A m c t h0]
      dsimp only
      refine ⟨fun i k => ?_, fun i k => ?_, fun i q => ?_⟩
      · rw [tableA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
        rw [proj1_apply]; unfold tab1
        refine Finset.sum_congr rfl fun d _ => ?_
        rw [nodes_blk m c t i d, band1_blk m c t d k]
      · rw [tableA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
        rw [proj2_apply]; unfold tab2
        refine Finset.sum_congr rfl fun d _ => ?_
        rw [nodes_blk m c t i d, band2_blk m c t d k]
      · rw [tableA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
        rw [projE_apply]; unfold tabE
        refine Finset.sum_congr rfl fun k _ => ?_
        rw [edges_blk m c t i k, table_blk m c t k q]
    · have hlt : t.val - 1 < cfg0.N := Nat.lt_of_le_of_lt (Nat.sub_le _ _) t.isLt
      obtain ⟨p1, p2, pE⟩ := ih ⟨t.val - 1, hlt⟩ (by show t.val - 1 = n; omega)
      have hb : batchOf ⟨t.val - 1, hlt⟩ = batchOf t := Fin.ext (by show (t.val - 1) / 8 = t.val / 8; omega)
      rw [hb] at p1 p2 pE
      rw [outsAt0_B m c t h0]
      dsimp only
      unfold sout0_B_0 sout0_B_1 sout0_B_2
      exact ⟨p1, p2, pE⟩

end Cert.EditKernel

end
-- ==== Proof.KOut.lean ====
/-
  The kernel body's stored output block read at an index, at the ideal instance.

  Edit row r*128 + l of a chunk, with words i, j, c in range, reads R1[i,c] + R2[j,c] + Qt[i, 4j+c] + bias[c] out of
  whatever the three tables hold: a one-hot row (a compare of the broadcast word with the lane number, read as 0 or 1)
  times a table is that table's row, a sum with one non-zero term; the 0/1 mask over the four channels keeps entry c
  of a row of four, and the mask over the 512 columns keeps entry 4j + c (the word j*4 + c does not wrap for j < 128
  and c < 4). Where the feasibility word is zero the block holds the minus-infinity word instead.
-/
import proofs.«404348_j52080773431693_3_alg».proof.Proof.KPay

noncomputable section

namespace Cert.EditKernel

open Idealize.ShloMosaic Idealize.ShloMosaic.ValueIdx Cert.KernelIdeal Cert.KernelIdeal.Gen Cert.EditSpec

/-- The 0/1 float of a word compare: one where the word is the lane number, zero elsewhere. -/
theorem onehot_word (w : BitVec 32) (n : Nat) (hn : n < 2 ^ 32) :
    FloatOps.sitofp (F := Ideal) .f32 ((IntOp.cmpi .eq w (BitVec.ofNat 32 n)).setWidth 32)
      = if w.toNat = n then (1 : EReal) else 0 := by
  have hiff : w = BitVec.ofNat 32 n ↔ w.toNat = n := by
    constructor
    · intro h; rw [h, BitVec.toNat_ofNat]; exact Nat.mod_eq_of_lt hn
    · intro h; apply BitVec.eq_of_toNat_eq; rw [BitVec.toNat_ofNat, h]; exact (Nat.mod_eq_of_lt hn).symm
  show (((((IntOp.cmpi .eq w (BitVec.ofNat 32 n)).setWidth 32).toInt : ℝ)) : EReal) = _
  unfold IntOp.cmpi
  by_cases h : w.toNat = n
  · have hw : w = BitVec.ofNat 32 n := hiff.mpr h
    have hb : (w == BitVec.ofNat 32 n) = true := by rw [hw]; exact beq_self_eq_true _
    have e : ((BitVec.ofBool true).setWidth 32).toInt = 1 := by decide
    rw [if_pos h]
    simp only [hb]
    rw [e]; norm_num
  · have hw : ¬ w = BitVec.ofNat 32 n := fun e => h (hiff.mp e)
    have hb : (w == BitVec.ofNat 32 n) = false := by simpa using hw
    have e : ((BitVec.ofBool false).setWidth 32).toInt = 0 := by decide
    rw [if_neg h]
    simp only [hb]
    rw [e]; norm_num

/-- The one-hot row of a node word: entry n is one exactly at the word's node. -/
theorem onehot_node_apply (x : Vec Ideal S1024 .i32) (p : Fin 1024) (n : Fin 128) (h : (x (ix1 p)).toNat < 128) :
    k0_pay6 (F := Ideal) x (ix2 p n) = if n = node (x (ix1 p)) then (1 : EReal) else 0 := by
  unfold k0_pay6
  rw [truncf_apply, sitofp_apply, extui_apply]
  show FloatOps.sitofp (F := Ideal) .f32 ((IntOp.cmpi .eq (broadcastTo S1024x128 (shapeCast S1024x1 x _) _ (ix2 p n)) (iota .tc S1024x128 32 [1] _ (ix2 p n))).setWidth 32) = _
  rw [Cert.LibColumn.broadcastTo_a1_ab_apply, Cert.LibColumn.shapeCast_a_a1_apply, iota_single_apply]
  refine (onehot_word _ n.val (by have := n.isLt; omega)).trans ?_
  have hv := node_val h
  by_cases e : n = node (x (ix1 p))
  · rw [if_pos e, if_pos (by rw [e]; exact hv.symm)]
  · rw [if_neg e, if_neg (fun e' => e (Fin.ext (by rw [hv]; exact e'.symm)))]

/-- The 0/1 mask over the four channels: entry k is one exactly at the word's channel. -/
theorem onehot_chan_apply (x : Vec Ideal S1024 .i32) (p : Fin 1024) (k : Fin 4) (h : (x (ix1 p)).toNat < 4) :
    k0_pay8 (F := Ideal) x (ix2 p k) = if k = chan (x (ix1 p)) then (1 : EReal) else 0 := by
  unfold k0_pay8
  rw [sitofp_apply, extui_apply]
  show FloatOps.sitofp (F := Ideal) .f32 ((IntOp.cmpi .eq (broadcastTo S1024x4 (shapeCast S1024x1 x _) _ (ix2 p k)) (iota .tc S1024x4 32 [1] _ (ix2 p k))).setWidth 32) = _
  rw [Cert.LibColumn.broadcastTo_a1_ab_apply, Cert.LibColumn.shapeCast_a_a1_apply, iota_single_apply]
  refine (onehot_word _ k.val (by have := k.isLt; omega)).trans ?_
  have hv := chan_val h
  by_cases e : k = chan (x (ix1 p))
  · rw [if_pos e, if_pos (by rw [e]; exact hv.symm)]
  · rw [if_neg e, if_neg (fun e' => e (Fin.ext (by rw [hv]; exact e'.symm)))]

/-- The target word j*4 + c, as a column, read at row p. -/
theorem target_apply (x3 x4 : Vec Ideal S1024 .i32) (p : Fin 1024) (u : Fin 1) :
    k0_pay11 (F := Ideal) x3 x4 (ix2 p u) = x3 (ix1 p) * 4#32 + x4 (ix1 p) := by
  unfold k0_pay11
  rw [Cert.LibColumn.shapeCast_a_a1_apply]
  rfl

/-- The word j*4 + c does not wrap for j < 128 and c < 4. -/
theorem target_toNat (a b : BitVec 32) (ha : a.toNat < 128) (hb : b.toNat < 4) :
    (a * 4#32 + b).toNat = a.toNat * 4 + b.toNat := by
  rw [BitVec.toNat_add, BitVec.toNat_mul]
  show (a.toNat * 4 % 2 ^ 32 + b.toNat) % 2 ^ 32 = _
  omega

theorem lhs4_0 (i : S1024x4.Idx) (q : dot_S1024x128_S128x4_S1024x4_1_0_0_1_n_n.contr.Idx) :
    (dot_S1024x128_S128x4_S1024x4_1_0_0_1_n_n.lhsIdx i q 0).val = (i 0).val := by
  unfold DotDims.lhsIdx
  rw [dif_neg (show ¬(0 : Fin S1024x128.rank) ∈ dot_S1024x128_S128x4_S1024x4_1_0_0_1_n_n.lhsBatch by decide), dif_pos (show (0 : Fin S1024x128.rank) ∈ dot_S1024x128_S128x4_S1024x4_1_0_0_1_n_n.lhsNonContracting by decide)]
  rfl
theorem lhs4_1 (i : S1024x4.Idx) (q : dot_S1024x128_S128x4_S1024x4_1_0_0_1_n_n.contr.Idx) :
    (dot_S1024x128_S128x4_S1024x4_1_0_0_1_n_n.lhsIdx i q 1).val = (q ⟨0, by decide⟩).val :=
  dot_S1024x128_S128x4_S1024x4_1_0_0_1_n_n.lhsIdx_val_of_single rfl i q
theorem rhs4_0 (i : S1024x4.Idx) (q : dot_S1024x128_S128x4_S1024x4_1_0_0_1_n_n.contr.Idx) :
    (dot_S1024x128_S128x4_S1024x4_1_0_0_1_n_n.rhsIdx i q 0).val = (q ⟨0, by decide⟩).val :=
  dot_S1024x128_S128x4_S1024x4_1_0_0_1_n_n.rhsIdx_val_of_single rfl i q
theorem rhs4_1 (i : S1024x4.Idx) (q : dot_S1024x128_S128x4_S1024x4_1_0_0_1_n_n.contr.Idx) :
    (dot_S1024x128_S128x4_S1024x4_1_0_0_1_n_n.rhsIdx i q 1).val = (i 1).val := by
  unfold DotDims.rhsIdx
  rw [dif_neg (show ¬(1 : Fin S128x4.rank) ∈ dot_S1024x128_S128x4_S1024x4_1_0_0_1_n_n.rhsBatch by decide), dif_pos (show (1 : Fin S128x4.rank) ∈ dot_S1024x128_S128x4_S1024x4_1_0_0_1_n_n.rhsNonContracting by decide)]
  rfl
/-- A [1024,128] x [128,4] product from a zero accumulator, read at (p, q): the sum over the 128 contracted lanes. -/
theorem matmul4_apply (A : FVec Ideal S1024x128 .bf16) (T : FVec Ideal S128x4 .bf16) (p : Fin 1024) (q : Fin 4) :
    matmul dot_S1024x128_S128x4_S1024x4_1_0_0_1_n_n none A T (constant (F := Ideal) S1024x4 .f32 0x00000000#32) (ix2 p q)
      = ∑ k : Fin 128, A (ix2 p k) * T (ix2 k q) := by
  simp only [matmul]
  rw [Ideal.matmul_constant_zero_apply, ← Equiv.sum_comp (ValueIdx.contrEquiv1 dot_S1024x128_S128x4_S1024x4_1_0_0_1_n_n 128 rfl rfl).symm]
  refine Finset.sum_congr rfl fun k _ => ?_
  have hk := ValueIdx.contrEquiv1_symm_val dot_S1024x128_S128x4_S1024x4_1_0_0_1_n_n 128 rfl rfl k
  have el : dot_S1024x128_S128x4_S1024x4_1_0_0_1_n_n.lhsIdx (ix2 p q) ((ValueIdx.contrEquiv1 dot_S1024x128_S128x4_S1024x4_1_0_0_1_n_n 128 rfl rfl).symm k) = ix2 p k := funext fun a => Fin.ext (by
    match a with
    | ⟨0, _⟩ => exact lhs4_0 _ _
    | ⟨1, _⟩ => exact (lhs4_1 _ _).trans hk)
  have er : dot_S1024x128_S128x4_S1024x4_1_0_0_1_n_n.rhsIdx (ix2 p q) ((ValueIdx.contrEquiv1 dot_S1024x128_S128x4_S1024x4_1_0_0_1_n_n 128 rfl rfl).symm k) = ix2 k q := funext fun a => Fin.ext (by
    match a with
    | ⟨0, _⟩ => exact (rhs4_0 _ _).trans hk
    | ⟨1, _⟩ => exact rhs4_1 _ _)
  rw [el, er]

theorem lhs512_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs512_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs512_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs512_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl
/-- A [1024,128] x [128,512] product from a zero accumulator, read at (p, q): the sum over the 128 contracted lanes. -/
theorem matmul512_apply (A : FVec Ideal S1024x128 .bf16) (T : FVec Ideal S128x512 .bf16) (p : Fin 1024) (q : Fin 512) :
    matmul dot_S1024x128_S128x512_S1024x512_1_0_0_1_n_n none A T (constant (F := Ideal) S1024x512 .f32 0x00000000#32) (ix2 p q)
      = ∑ k : Fin 128, A (ix2 p k) * T (ix2 k q) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p q) ((ValueIdx.contrEquiv1 dot_S1024x128_S128x512_S1024x512_1_0_0_1_n_n 128 rfl rfl).symm k) = ix2 p k := funext fun a => Fin.ext (by
    match a with
    | ⟨0, _⟩ => exact lhs512_0 _ _
    | ⟨1, _⟩ => exact (lhs512_1 _ _).trans hk)
  have er : dot_S1024x128_S128x512_S1024x512_1_0_0_1_n_n.rhsIdx (ix2 p q) ((ValueIdx.contrEquiv1 dot_S1024x128_S128x512_S1024x512_1_0_0_1_n_n 128 rfl rfl).symm k) = ix2 k q := funext fun a => Fin.ext (by
    match a with
    | ⟨0, _⟩ => exact (rhs512_0 _ _).trans hk
    | ⟨1, _⟩ => exact rhs512_1 _ _)
  rw [el, er]

/-- A sum over the 4 lanes of row p. -/
theorem lanesum4 (v : FVec Ideal S1024x4 .f32) (h : S1024x4.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ k : Fin 4, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- A sum over the 512 lanes of row p. -/
theorem lanesum512 (v : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ k : Fin 512, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- A one-hot row times a four-column table is the table's row at the word's node. -/
theorem onehot_matmul4 (x : Vec Ideal S1024 .i32) (T : FVec Ideal S128x4 .bf16) (p : Fin 1024) (c : Fin 4)
    (h : (x (ix1 p)).toNat < 128) :
    matmul dot_S1024x128_S128x4_S1024x4_1_0_0_1_n_n none (k0_pay6 (F := Ideal) x) T
        (constant (F := Ideal) S1024x4 .f32 0x00000000#32) (ix2 p c) = T (ix2 (node (x (ix1 p))) c) := by
  refine (matmul4_apply _ _ p c).trans ?_
  refine (Finset.sum_congr rfl fun k _ => by rw [onehot_node_apply x p k h]).trans ?_
  exact sum_onehot_mul (node (x (ix1 p))) (fun k => T (ix2 k c))

/-- The projected edge table's row at the word's node. -/
theorem edgerow_apply (x : Vec Ideal S1024 .i32) (T : Vec Ideal S128x512 .bf16) (p : Fin 1024) (q : Fin 512)
    (h : (x (ix1 p)).toNat < 128) :
    k0_pay7 (F := Ideal) x T (ix2 p q) = T (ix2 (node (x (ix1 p))) q) := by
  unfold k0_pay7
  refine (matmul512_apply _ _ p q).trans ?_
  refine (Finset.sum_congr rfl fun k _ => by rw [onehot_node_apply x p k h]).trans ?_
  exact sum_onehot_mul (node (x (ix1 p))) (fun k => T (ix2 k q))

/-- A node's row of a four-column table, masked to the channel and summed over the four lanes. -/
theorem gather1_apply (x xc : Vec Ideal S1024 .i32) (T : Vec Ideal S128x4 .bf16) (p : Fin 1024)
    (h : (x (ix1 p)).toNat < 128) (hc : (xc (ix1 p)).toNat < 4) :
    k0_pay9 (F := Ideal) x xc T (ix1 p) = T (ix2 (node (x (ix1 p))) (chan (xc (ix1 p)))) := by
  unfold k0_pay9
  refine (lanesum4 _ _ _ _ p).trans ?_
  refine (Finset.sum_congr rfl fun k _ => ?_).trans
    (sum_mul_onehot (chan (xc (ix1 p))) (fun k => T (ix2 (node (x (ix1 p))) k)))
  rw [mulf_apply, onehot_matmul4 x T p k h, onehot_chan_apply xc p k hc]

/-- The second node's gather is the first's, word for word. -/
theorem gather2_apply (x xc : Vec Ideal S1024 .i32) (T : Vec Ideal S128x4 .bf16) (p : Fin 1024)
    (h : (x (ix1 p)).toNat < 128) (hc : (xc (ix1 p)).toNat < 4) :
    k0_pay10 (F := Ideal) x xc T (ix1 p) = T (ix2 (node (x (ix1 p))) (chan (xc (ix1 p)))) :=
  (show k0_pay10 (F := Ideal) x xc T (ix1 p) = k0_pay9 (F := Ideal) x xc T (ix1 p) from rfl).trans
    (gather1_apply x xc T p h hc)

/-- The 0/1 mask over the 512 columns: entry q is one exactly at column 4j + c. -/
theorem mask512_apply (x3 x4 : Vec Ideal S1024 .i32) (hb : S1024x1.Broadcasts S1024x512)
    (hio : S1024x512.Iotas .tc 32 [1]) (hlt : 1 < 32) (p : Fin 1024) (q : Fin 512)
    (hj : (x3 (ix1 p)).toNat < 128) (hc : (x4 (ix1 p)).toNat < 4) :
    (sitofp .f32 (extui 32 (cmpi .eq (broadcastTo S1024x512 (k0_pay11 (F := Ideal) x3 x4) hb)
        (iota .tc S1024x512 32 [1] hio)) hlt) : FVec Ideal S1024x512 .f32) (ix2 p q)
      = if q = col (node (x3 (ix1 p))) (chan (x4 (ix1 p))) then (1 : EReal) else 0 := by
  rw [sitofp_apply, extui_apply]
  show FloatOps.sitofp (F := Ideal) .f32 ((IntOp.cmpi .eq (broadcastTo S1024x512 (k0_pay11 (F := Ideal) x3 x4) _ (ix2 p q))
    (iota .tc S1024x512 32 [1] _ (ix2 p q))).setWidth 32) = _
  rw [Cert.LibColumn.broadcastTo_a1_ab_apply, target_apply, iota_single_apply]
  refine (onehot_word _ q.val (by have := q.isLt; omega)).trans ?_
  have ht := target_toNat _ _ hj hc
  have hn := node_val hj
  have hcv := chan_val hc
  have hcol : (col (node (x3 (ix1 p))) (chan (x4 (ix1 p)))).val
      = (x3 (ix1 p) * 4#32 + x4 (ix1 p)).toNat := by
    show (node (x3 (ix1 p))).val * 4 + (chan (x4 (ix1 p))).val = _
    rw [hn, hcv, ht]
  by_cases e : q = col (node (x3 (ix1 p))) (chan (x4 (ix1 p)))
  · rw [if_pos e, if_pos (by rw [e]; exact hcol.symm)]
  · rw [if_neg e, if_neg (fun e' => e (Fin.ext (by rw [hcol]; exact e'.symm)))]

/-- The node's row of the projected edge table, masked to column 4j + c and summed over the 512 lanes. -/
theorem edge_apply (x2 x3 x4 : Vec Ideal S1024 .i32) (s2 : Vec Ideal S128x512 .bf16)
    (h : S1024x512.Reduces [1] S1024) (hφ : FKind.Formats .f32)
    (hacc : (0x00000000#32 : BitVec 32) = FKind.add.neutral .f32 hφ) (hb : S1024x1.Broadcasts S1024x512)
    (hio : S1024x512.Iotas .tc 32 [1]) (hlt : 1 < 32) (p : Fin 1024)
    (hi : (x2 (ix1 p)).toNat < 128) (hj : (x3 (ix1 p)).toNat < 128) (hc : (x4 (ix1 p)).toNat < 4) :
    multiReduction (F := Ideal) .add [1] S1024
        (mulf (k0_pay7 (F := Ideal) x2 s2) (sitofp .f32 (extui 32 (cmpi .eq
          (broadcastTo S1024x512 (k0_pay11 (F := Ideal) x3 x4) hb) (iota .tc S1024x512 32 [1] hio)) hlt)))
        0x00000000#32 h hφ hacc (ix1 p)
      = s2 (ix2 (node (x2 (ix1 p))) (col (node (x3 (ix1 p))) (chan (x4 (ix1 p))))) := by
  refine (lanesum512 _ h hφ hacc p).trans ?_
  refine (Finset.sum_congr rfl fun q _ => ?_).trans
    (sum_mul_onehot (col (node (x3 (ix1 p))) (chan (x4 (ix1 p)))) (fun q => s2 (ix2 (node (x2 (ix1 p))) q)))
  rw [mulf_apply, edgerow_apply x2 s2 p q hi, mask512_apply x3 x4 hb hio hlt p q hj hc]

/-- The bias row, masked to the channel and summed over the four lanes. -/
theorem bias_apply (x4 : Vec Ideal S1024 .i32) (x9 : Vec Ideal S4 .f32) (h : S1024x4.Reduces [1] S1024)
    (hφ : FKind.Formats .f32) (hacc : (0x00000000#32 : BitVec 32) = FKind.add.neutral .f32 hφ)
    (hs : S4.ShapeCasts S1x4) (hb : S1x4.Broadcasts S1024x4) (p : Fin 1024) (hc : (x4 (ix1 p)).toNat < 4) :
    multiReduction (F := Ideal) .add [1] S1024
        (mulf (k0_pay8 (F := Ideal) x4) (broadcastTo S1024x4 (shapeCast S1x4 x9 hs) hb))
        0x00000000#32 h hφ hacc (ix1 p)
      = x9 (ix1 (chan (x4 (ix1 p)))) := by
  refine (lanesum4 _ h hφ hacc p).trans ?_
  refine (Finset.sum_congr rfl fun k _ => ?_).trans
    (sum_onehot_mul (chan (x4 (ix1 p))) (fun k => x9 (ix1 k)))
  rw [mulf_apply, onehot_chan_apply x4 p k hc, broadcastTo_1b_ab_apply, shapeCast_a_1a_apply]

/-- A length-1024 vector viewed as 8 rows of 128 reads, at (r, l), the vector at r*128 + l. -/
theorem cast1024_apply {α : Type} (V : S1024.Idx → α) (h : S1024.ShapeCasts S8x128) (r : Fin 8) (l : Fin 128) :
    shapeCast S8x128 V h (ix2 r l) = V (ix1 (row r l)) :=
  shapeCast_apply V h _ _ (by
    rw [Shape.rowMajor_val_two, Shape.rowMajor_val_one]
    rfl)

/-- A compare of a word with zero for inequality. -/
theorem cmpi_ne_zero (w : BitVec 32) : IntOp.cmpi .ne w 0#32 = if w = 0#32 then 0#1 else 1#1 := by
  unfold IntOp.cmpi
  by_cases h : w = 0#32
  · rw [if_pos h, h]; rfl
  · rw [if_neg h]
    have : (w != 0#32) = true := by simpa using h
    simp only [this]
    rfl

/-- The layout and the select: the block at (0, r, l) keeps the summed vector's entry r*128 + l where the
    feasibility word is not zero, and holds the minus-infinity word where it is. -/
theorem select_layout (V : FVec Ideal S1024 .f32) (x5 : Vec Ideal S1x8x128 .i32) (h1 : S1024.ShapeCasts S8x128)
    (h2 : S1x8x128.ShapeCasts S8x128) (h3 : S8x128.ShapeCasts S1x8x128) (r : Fin 8) (l : Fin 128) :
    shapeCast S1x8x128 (select (cmpi .ne (shapeCast S8x128 x5 h2) (broadcast S8x128 0#32)) (shapeCast S8x128 V h1)
        (broadcast S8x128 (Scalar.ofBits (F := Ideal) .f32 0xFF800000#32))) h3 (ix3 (0 : Fin 1) r l)
      = if x5 (ix3 (0 : Fin 1) r l) = 0#32 then Ideal.ofBits .f32 0xFF800000#32 else V (ix1 (row r l)) := by
  rw [shapeCast_ab_1ab_apply, select_apply, broadcast_apply, cast1024_apply]
  show Scalar.select (IntOp.cmpi .ne (shapeCast S8x128 x5 h2 (ix2 r l)) (broadcast S8x128 0#32 (ix2 r l))) _ _ = _
  rw [shapeCast_1ab_ab_apply, broadcast_apply, cmpi_ne_zero]
  by_cases hz : x5 (ix3 (0 : Fin 1) r l) = 0#32
  · rw [if_pos hz, if_pos hz]; exact select_zero _ _
  · rw [if_neg hz, if_neg hz]; exact select_one _ _

/-- The stored output block at (0, r, l), over whatever the three tables hold (s0, s1, s2), for in-range words. -/
theorem out_apply (x2 x3 x4 : Vec Ideal S1024 .i32) (x5 : Vec Ideal S1x8x128 .i32) (x9 : Vec Ideal S4 .f32)
    (s0 s1 : Vec Ideal S128x4 .bf16) (s2 : Vec Ideal S128x512 .bf16) (r : Fin 8) (l : Fin 128)
    (hi : (x2 (ix1 (row r l))).toNat < 128) (hj : (x3 (ix1 (row r l))).toNat < 128) (hc : (x4 (ix1 (row r l))).toNat < 4) :
    k0_pay1 (F := Ideal) (k0_pay7 x2 s2) (k0_pay8 x4) (k0_pay9 x2 x4 s0) (k0_pay10 x3 x4 s1)
        (iota .tc S1024x512 32 [1] iota_S1024x512_d1_w32) (k0_pay11 x3 x4) x9 x5 (ix3 (0 : Fin 1) r l)
      = if x5 (ix3 (0 : Fin 1) r l) = 0#32 then Ideal.ofBits .f32 0xFF800000#32
        else s0 (ix2 (node (x2 (ix1 (row r l)))) (chan (x4 (ix1 (row r l)))))
          + s1 (ix2 (node (x3 (ix1 (row r l)))) (chan (x4 (ix1 (row r l)))))
          + s2 (ix2 (node (x2 (ix1 (row r l)))) (col (node (x3 (ix1 (row r l)))) (chan (x4 (ix1 (row r l))))))
          + x9 (ix1 (chan (x4 (ix1 (row r l))))) := by
  unfold k0_pay1
  refine (select_layout _ x5 _ _ _ r l).trans (if_congr Iff.rfl rfl ?_)
  rw [addf_apply, addf_apply, addf_apply]
  refine congrArg₂ (· + ·) (congrArg₂ (· + ·) (congrArg₂ (· + ·) ?_ ?_) ?_) ?_
  · exact gather1_apply x2 x4 s0 _ hi hc
  · exact gather2_apply x3 x4 s1 _ hj hc
  · exact edge_apply x2 x3 x4 s2 _ _ _ _ _ _ _ hi hj hc
  · exact bias_apply x4 x9 _ _ _ _ _ _ hc

end Cert.EditKernel

end
-- ==== Proof.KValue.lean ====
/-
  The kernel's output array, index by index.

  Point t's output block, at (0, r, l), holds the selected logit of batch t / 8, edit (t % 8) * 1024 + r * 128 + l:
  the body's arithmetic over the point's word, feasibility and bias blocks and over the three tables the scratch
  carries, which are that batch's tables at every point. The blocks are written back at every point and tile the
  [32,64,128] output array, block t covering rows (t % 8) * 8 .. + 7 of batch t / 8; so the array holds, at
  (b, R, l), the selected logit of edit R * 128 + l, and viewed [32,8192] it is the specification's array.
-/
import proofs.«404348_j52080773431693_3_alg».proof.Proof.KTables
import proofs.«404348_j52080773431693_3_alg».proof.Proof.KOut

set_option maxRecDepth 16384

noncomputable section

namespace Cert.EditKernel

open Idealize.ShloMosaic Idealize.ShloMosaic.TcCoe Idealize.ShloMosaic.ValueIdx Cert.KernelIdeal Cert.KernelIdeal.Gen Cert.EditSpec
open Idealize.SL.Sem
open Idealize.ShloMosaic.Pipeline (Dat)

variable (m : (ℓ : Loc nD τ sig) → Buf (Elt Ideal) ℓ)

/-- A one-bit word widened to 32 bits is zero exactly when the bit is not set. -/
theorem widened_zero_iff (b : BitVec 1) : b.setWidth 32 = 0#32 ↔ ¬ b = 1#1 := by
  revert b; decide

/-- The point's blocks, each named at its literal type. -/
abbrev bI (c : Dev nD) (t : Fin cfg0.N) : Vec Ideal S1024 .i32 := iblk m c 2 t
abbrev bJ (c : Dev nD) (t : Fin cfg0.N) : Vec Ideal S1024 .i32 := iblk m c 3 t
abbrev bC (c : Dev nD) (t : Fin cfg0.N) : Vec Ideal S1024 .i32 := iblk m c 4 t
abbrev bFeas (c : Dev nD) (t : Fin cfg0.N) : Vec Ideal S1x8x128 .i32 := iblk m c 5 t
abbrev bBias (c : Dev nD) (t : Fin cfg0.N) : Vec Ideal S4 .f32 := iblk m c 9 t

/-- Row r * 128 + l of chunk t % 8 is edit (t % 8 * 8 + r) * 128 + l. -/
theorem editOf_rowAt (t : Fin cfg0.N) (r : Fin 8) (l : Fin 128) : editOf (rowAt t r) l = editAt t (row r l) :=
  Fin.ext (by show (t.val % 8 * 8 + r.val) * 128 + l.val = t.val % 8 * 1024 + (r.val * 128 + l.val); omega)

theorem bI_apply (c : Dev nD) (t : Fin cfg0.N) (p : Fin 1024) : bI m c t (ix1 p) = aI m c (ix1 (editAt t p)) := by
  refine (wordI_blk m c t p).trans ?_
  rw [V_main_arg6 m c]
theorem bJ_apply (c : Dev nD) (t : Fin cfg0.N) (p : Fin 1024) : bJ m c t (ix1 p) = aJ m c (ix1 (editAt t p)) := by
  refine (wordJ_blk m c t p).trans ?_
  rw [V_main_arg7 m c]
theorem bC_apply (c : Dev nD) (t : Fin cfg0.N) (p : Fin 1024) : bC m c t (ix1 p) = aC m c (ix1 (editAt t p)) := by
  refine (wordC_blk m c t p).trans ?_
  rw [V_main_arg8 m c]
theorem bBias_apply (c : Dev nD) (t : Fin cfg0.N) (k : Fin 4) : bBias m c t (ix1 k) = aBias m c (ix1 k) := by
  refine (bias_blk m c t k).trans ?_
  rw [V_main_arg3 m c]
theorem bFeas_apply (c : Dev nD) (t : Fin cfg0.N) (r : Fin 8) (l : Fin 128) :
    bFeas m c t (ix3 (0 : Fin 1) r l) = (aFeas m c (ix2 (batchOf t) (editAt t (row r l)))).setWidth 32 := by
  refine (feas_blk m c t r l).trans ?_
  rw [feas_apply m c (batchOf t) (rowAt t r) l, editOf_rowAt]

/-- The output block over any three tables that are the batch's: the selected logit of the block's edit. -/
theorem out_val (c : Dev nD) (t : Fin cfg0.N) (s0 s1 : Vec Ideal S128x4 .bf16) (s2 : Vec Ideal S128x512 .bf16)
    (h0 : ∀ (i : Fin 128) (k : Fin 4), s0 (ix2 i k) = tab1 m c (batchOf t) i k)
    (h1 : ∀ (i : Fin 128) (k : Fin 4), s1 (ix2 i k) = tab2 m c (batchOf t) i k)
    (h2 : ∀ (i : Fin 128) (q : Fin 512), s2 (ix2 i q) = tabE m c (batchOf t) i q)
    (hI : ∀ k : Fin 8192, (aI m c (ix1 k)).toNat < 128) (hJ : ∀ k : Fin 8192, (aJ m c (ix1 k)).toNat < 128)
    (hC : ∀ k : Fin 8192, (aC m c (ix1 k)).toNat < 4) (r : Fin 8) (l : Fin 128) :
    blockOut (bI m c t) (bJ m c t) (bC m c t) (bFeas m c t) (bBias m c t) s0 s1 s2 (ix3 (0 : Fin 1) r l)
      = sel (aNodes m c) (aEdges m c) (aW m c) (aBias m c) (aI m c) (aJ m c) (aC m c) (aFeas m c)
          (batchOf t) (editAt t (row r l)) := by
  unfold blockOut
  rw [out_apply (bI m c t) (bJ m c t) (bC m c t) (bFeas m c t) (bBias m c t) s0 s1 s2 r l
    (by rw [bI_apply]; exact hI _) (by rw [bJ_apply]; exact hJ _) (by rw [bC_apply]; exact hC _)]
  rw [bI_apply, bJ_apply, bC_apply, bFeas_apply, bBias_apply, h0, h1, h2,
    show col (node (aJ m c (ix1 (editAt t (row r l))))) (chan (aC m c (ix1 (editAt t (row r l)))))
      = colOf (node (aJ m c (ix1 (editAt t (row r l))))) (chan (aC m c (ix1 (editAt t (row r l))))) from rfl,
    tab1_eq, tab2_eq, tabE_eq]
  unfold sel logit
  by_cases hf : aFeas m c (ix2 (batchOf t) (editAt t (row r l))) = 1#1
  · rw [if_neg (fun h => (widened_zero_iff _).mp h hf), if_pos hf]
  · rw [if_pos ((widened_zero_iff _).mpr hf), if_neg hf]

/-- What point t leaves in the output block, at (0, r, l). -/
theorem out_at (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4)
    (c : Dev nD) (t : Fin cfg0.N) (r : Fin 8) (l : Fin 128) :
    (outsAt0 m c t.val t.isLt).1 (ix3 (0 : Fin 1) r l)
      = sel (aNodes m c) (aEdges m c) (aW m c) (aBias m c) (aI m c) (aJ m c) (aC m c) (aFeas m c)
          (batchOf t) (editAt t (row r l)) := by
  by_cases h0 : t.val % 8 = 0
  · obtain ⟨p1, p2, pE⟩ := tables_at m c t.val t rfl
    rw [outsAt0_A m c t h0] at p1 p2 pE ⊢
    dsimp only at p1 p2 pE ⊢
    rw [tableA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)] at p1
    rw [tableA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)] at p2
    rw [tableA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)] at pE
    rw [outA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
    exact out_val m c t _ _ _ p1 p2 pE (hI c) (hJ c) (hC c) r l
  · have hlt : t.val - 1 < cfg0.N := Nat.lt_of_le_of_lt (Nat.sub_le _ _) t.isLt
    obtain ⟨p1, p2, pE⟩ := tables_at m c (t.val - 1) ⟨t.val - 1, hlt⟩ rfl
    have hb : batchOf ⟨t.val - 1, hlt⟩ = batchOf t := Fin.ext (by show (t.val - 1) / 8 = t.val / 8; omega)
    rw [hb] at p1 p2 pE
    rw [outsAt0_B m c t h0]
    dsimp only
    rw [outB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)]
    exact out_val m c t _ _ _ p1 p2 pE (hI c) (hJ c) (hC c) r l

/-- The output array: at (b, R, l) the selected logit of batch b, edit R * 128 + l. -/
def kout (c : Dev nD) : FVec Ideal S32x64x128 .f32 := fun idx =>
  sel (aNodes m c) (aEdges m c) (aW m c) (aBias m c) (aI m c) (aJ m c) (aC m c) (aFeas m c) (idx 0) (editOf (idx 1) (idx 2))

theorem kout_apply (c : Dev nD) (b : Fin 32) (R : Fin 64) (l : Fin 128) :
    kout m c (ix3 b R l) = sel (aNodes m c) (aEdges m c) (aW m c) (aBias m c) (aI m c) (aJ m c) (aC m c) (aFeas m c) b (editOf R l) := rfl

/-- Block t of the output array, at (0, r, l), is the array at (t / 8, (t % 8) * 8 + r, l). -/
theorem out_emb (t : Fin cfg0.N) (r : Fin 8) (l : Fin 128) :
    (((cfg0.win 10).blk t).view.emb (ix3 (0 : Fin 1) r l) : S32x64x128.Idx) = ix3 (batchOf t) (rowAt t r) l := by
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  funext a
  apply Fin.ext
  match a with
  | ⟨0, _⟩ => show win0_10.index t (0 : Fin 3) * 1 + 1 * 0 = t.val / 8; omega
  | ⟨1, _⟩ => show win0_10.index t (1 : Fin 3) * 8 + 1 * r.val = t.val % 8 * 8 + r.val; omega
  | ⟨2, _⟩ => show win0_10.index t (2 : Fin 3) * 128 + 1 * l.val = l.val; omega

/-- What point t writes back is block t of the output array. -/
theorem flushed_eq (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4) (c : Dev nD) (t : Fin cfg0.N) :
    (dats m 0 c).flushed 10 t = ((cfg0.win 10).blk t).view.read (Elt Ideal) (kout m c) := by
  show (cfg0.win 10).cut (grid0.coords t) ((dats m 0 c).after 10 t) = _
  rw [after0_10]
  funext j
  have hj := eq_ix3 (n0 := 1) (n1 := 8) (n2 := 128) j
  obtain ⟨p, r, l, rfl⟩ : ∃ (p : Fin 1) (r : Fin 8) (l : Fin 128), j = ix3 p r l := ⟨_, _, _, hj⟩
  obtain rfl : p = 0 := Subsingleton.elim _ _
  show (outsAt0 m c t.val t.isLt).1 (ix3 (0 : Fin 1) r l) = kout m c (((cfg0.win 10).blk t).view.emb (ix3 (0 : Fin 1) r l))
  rw [out_emb, kout_apply, editOf_rowAt]
  exact out_at m hI hJ hC c t r l

/-- An index of the output array is in point t's block iff each coordinate is in the block's range. -/
theorem mem_out_blk (t : Fin cfg0.N) (i : S32x64x128.Idx) :
    i ∈ ((cfg0.win 10).blk t).view.set ↔ ∀ a : Fin 3, win0_10.index t a * S1x8x128.size a ≤ (i a).val
      ∧ (i a).val < win0_10.index t a * S1x8x128.size a + S1x8x128.size a := by
  show i ∈ ((View.whole main_v14).slice (win0_10.rect t)).set ↔ _
  rw [View.set_slice_whole, Rect.mem_set_unit]
  exact Iff.rfl

/-- Every index of the output array is in some point's block. -/
theorem out_cover (i : S32x64x128.Idx) : ∃ t : Fin cfg0.N, (cfg0.win 10).flush t = true ∧ i ∈ ((cfg0.win 10).blk t).view.set := by
  have g0 : (i 0).val < 32 := (i 0).isLt
  have g1 : (i 1).val < 64 := (i 1).isLt
  have g2 : (i 2).val < 128 := (i 2).isLt
  have hN := N256
  let t : Fin cfg0.N := ⟨(i 0).val * 8 + (i 1).val / 8, by omega⟩
  have ht : t.val = (i 0).val * 8 + (i 1).val / 8 := rfl
  obtain ⟨e0_0, e0_1, e0_2, e1_0, e1_1, e1_2, e2_0, e3_0, e4_0, e5_0, e5_1, e5_2, e6_0, e6_1, e7_0, e7_1, e8_0, e8_1, e9_0, e10_0, e10_1, e10_2⟩ := idx_facts t
  refine ⟨t, flush0_10 t, (mem_out_blk t i).mpr fun a => ?_⟩
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 8 ≤ (i 1).val ∧ (i 1).val < win0_10.index t (1 : Fin 3) * 8 + 8; omega
  | ⟨2, _⟩ => show win0_10.index t (2 : Fin 3) * 128 ≤ (i 2).val ∧ (i 2).val < win0_10.index t (2 : Fin 3) * 128 + 128; omega

/-- The output array after the run. -/
theorem out_final (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4) (c : Dev nD) :
    (dats m 0 c).arrAt 10 cfg0.N = kout m c :=
  (dats m 0 c).arrAt_eq_of_cover 10 (kout m c) (fun t _ => flushed_eq m hI hJ hC c t) out_cover

/-- Viewed [32,8192], the output array is the specification's array of selected logits. -/
theorem kernel_out (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4) (c : Dev nD) :
    shapeCast S32x8192 ((dats m 0 c).arrAt 10 cfg0.N) shapeCasts_S32x64x128_S32x8192
      = selArr (aNodes m c) (aEdges m c) (aW m c) (aBias m c) (aI m c) (aJ m c) (aC m c) (aFeas m c) := by
  rw [out_final m hI hJ hC c]
  funext idx
  have hidx := eq_ix2 (n0 := 32) (n1 := 8192) idx
  obtain ⟨b, k, rfl⟩ : ∃ (b : Fin 32) (k : Fin 8192), idx = ix2 b k := ⟨_, _, hidx⟩
  rw [selArr_apply]
  have hk : k.val < 8192 := k.isLt
  refine (shapeCast_apply (kout m c) shapeCasts_S32x64x128_S32x8192 (ix2 b k)
    (ix3 b (⟨k.val / 128, by omega⟩ : Fin 64) (⟨k.val % 128, Nat.mod_lt _ (by decide)⟩ : Fin 128))
    (by rewrite [Shape.rowMajor_val_three, Shape.rowMajor_val_two]
        show (b.val * 64 + k.val / 128) * 128 + k.val % 128 = b.val * 8192 + k.val
        omega)).trans ?_
  rw [kout_apply]
  congr 1
  exact Fin.ext (by show k.val / 128 * 128 + k.val % 128 = k.val; omega)

end Cert.EditKernel

end
-- ==== Proof.KTail.lean ====
/-
  The program's result after the kernel region.

  After the region the host views the kernel's output array [32,64,128] as [32,8192], computes the stop logit of
  each batch from the node features (their mean over the nodes times the stop weights, plus the stop bias, kept where
  the batch's stop bit is set and minus infinity elsewhere) as a column [32,1], and joins the two along the second
  axis. The stop column is one function of four argument arrays and is carried whole, never opened: the reference
  computes the same column by the same operations.
-/
import proofs.«404348_j52080773431693_3_alg».proof.Proof.Gen.KernelIdeal.Frame
import Idealize.ShloMosaic.Lib.Pipeline.Value
import Idealize.ShloMosaic.Lib.StableHlo.Run

noncomputable section

namespace Cert.EditKernel

open Idealize.ShloMosaic Idealize.ShloMosaic.TcCoe Cert.KernelIdeal Cert.KernelIdeal.Gen
open Idealize.SL.Sem

variable {F : FTy → Type} [FloatOps F]

/-- The stop column: per batch, mean node features times the stop weights plus the stop bias, or minus infinity. -/
def stopCol (a0 : FVec F S32x128x128 .f32) (a4 : FVec F S128x1 .f32) (a5 : FVec F S1 .f32) (a10 : IVec S32 1) :
    FVec F S32x1 .f32 :=
  broadcastInDim S32x1 ![0] bcast_S32_S32x1_0
    (select a10
      (shapeCast S32
        (addf
          (Host.dotGeneral dot_S32x128_S128x1_S32x1_1_0_0_1_n_n none
            (Host.divf (Host.reduceAdd a0 (constant S_ .f32 0x00000000#32) reducesTo_S32x128x128_S32x128_d1 h_S_)
              (broadcastInDim S32x128 ![] bcast_S_S32x128 (constant S_ .f32 0x43000000#32)))
            a4)
          (broadcastInDim S32x1 ![0, 1] bcast_S1x1_S32x1_0_1 (broadcastInDim S1x1 ![1] bcast_S1_S1x1_1 a5)))
        shapeCasts_S32x1_S32)
      (broadcastInDim S32 ![] bcast_S_S32 (constant S_ .f32 0xFF800000#32)))

variable (m : (ℓ : Loc nD τ sig) → Buf (Elt F) ℓ)

set_option maxHeartbeats 4000000 in
/-- The result buffer after the tail: the kernel's output array viewed [32,8192], joined with the stop column. -/
theorem tail_eq (c : Dev nD) :
    Pipeline.afterTail₀ cfgs (dats m) 0 (V0 m) [hostOps1, hostOps1_1, hostOps1_2] c main_v26
      = concatenate S32x8193 1
          [⟨S32x8192, shapeCast S32x8192 ((dats m 0 c).arrAt 10 cfg0.N) shapeCasts_S32x64x128_S32x8192⟩,
           ⟨S32x1, stopCol (m ((c : Thread nD τ).loc main_arg0)) (m ((c : Thread nD τ).loc main_arg4))
              (m ((c : Thread nD τ).loc main_arg5)) (m ((c : Thread nD τ).loc main_arg10))⟩]
          concatenates_S32x8192_S32x1_S32x8193_d1 := by
  unfold Pipeline.afterTail₀
  simp only [hostOps1, hostOps1_1, hostOps1_2, List.flatten_cons, List.flatten_nil, List.append_nil, List.cons_append, List.nil_append]
  after_results
  have h14 : Pipeline.withArrays (cfgs 0).spec c (V0 m c) (fun w => (dats m 0 c).arrAt w (cfgs 0).N) (Proc.devRef .tc main_v14)
      = (dats m 0 c).arrAt 10 cfg0.N :=
    Pipeline.withArrays_arr spec0 launch0.win.arr_inj c _ _ 10
  have h0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have h10 : Pipeline.withArrays (cfgs 0).spec c (V0 m c) (fun w => (dats m 0 c).arrAt w (cfgs 0).N) (Proc.devRef .tc main_arg10)
      = m ((c : Thread nD τ).loc main_arg10) :=
    (Pipeline.withArrays_of_ne _ c (V0 m c) _ main_arg10 (by exact (by decide : ∀ w, Pipeline.arrRef spec0 w ≠ main_arg10))).trans (V_main_arg10 m c)
  rw [h14, h0, h4, h5, h10]
  rfl

end Cert.EditKernel

end
-- ==== Proof.KRun.lean ====
/-
  The kernel program's run, read: under the index ranges, every weakly fair execution ends with the result buffer at
  the selected logits joined with the stop column, and the argument arrays unchanged.
-/
import proofs.«404348_j52080773431693_3_alg».proof.Proof.KValue
import proofs.«404348_j52080773431693_3_alg».proof.Proof.KTail

noncomputable section

namespace Cert.EditKernel

open Idealize.ShloMosaic Idealize.ShloMosaic.TcCoe Idealize.ShloMosaic.ValueIdx Cert.KernelIdeal Cert.KernelIdeal.Gen Cert.EditSpec
open Idealize.SL.Sem

variable (m : (ℓ : Loc nD τ sig) → Buf (Elt Ideal) ℓ) (ρ : Dev nD → PrngReg)

/-- The program's result: the selected logits [32,8192] joined with the stop column [32,1]. -/
def result (c : Dev nD) : FVec Ideal S32x8193 .f32 :=
  concatenate S32x8193 1
    [⟨S32x8192, selArr (aNodes m c) (aEdges m c) (aW m c) (aBias m c) (aI m c) (aJ m c) (aC m c) (aFeas m c)⟩,
     ⟨S32x1, stopCol (F := Ideal) (m ((c : Thread nD τ).loc main_arg0)) (m ((c : Thread nD τ).loc main_arg4))
        (m ((c : Thread nD τ).loc main_arg5)) (m ((c : Thread nD τ).loc main_arg10))⟩]
    concatenates_S32x8192_S32x1_S32x8193_d1

/-- The result buffer after the tail is `result`. -/
theorem tail_result (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4) (c : Dev nD) :
    Pipeline.afterTail₀ cfgs (dats m) 0 (V0 m) [hostOps1, hostOps1_1, hostOps1_2] c main_v26 = result m c := by
  rw [tail_eq (F := Ideal) m c, kernel_out m hI hJ hC c]
  rfl

/-- The run. -/
theorem kernel_run (hI : ∀ (c : Dev nD) (k : Fin 8192), (aI m c (ix1 k)).toNat < 128)
    (hJ : ∀ (c : Dev nD) (k : Fin 8192), (aJ m c (ix1 k)).toNat < 128)
    (hC : ∀ (c : Dev nD) (k : Fin 8192), (aC m c (ix1 k)).toNat < 4) :
    θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v26 (Pipeline.mem_restRefs_of main_v26 (by decide) (by decide))).trans (tail_result m hI hJ hC c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 9).trans ((((dats m) 0 c).arrAt_in 9 rfl _).trans ((A_eq m c 9).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 2).trans ((((dats m) 0 c).arrAt_in 2 rfl _).trans ((A_eq m c 2).trans (V_main_arg6 m c))),
      ((h c).1 3).trans ((((dats m) 0 c).arrAt_in 3 rfl _).trans ((A_eq m c 3).trans (V_main_arg7 m c))),
      ((h c).1 4).trans ((((dats m) 0 c).arrAt_in 4 rfl _).trans ((A_eq m c 4).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.EditKernel

end
-- ==== Proof.RefGather.lean ====
/-
  The reference's gathers read at an index.

  The reference picks, for edit k, node i_idx[k]'s features, node j_idx[k]'s features and the features of the edge
  between them, and lays the three side by side as one row of 288 features: columns 0..127 are node i's, columns
  128..255 node j's, columns 256..287 the edge's. A negative word would be wrapped by adding the extent and an
  out-of-range start clamped; for a word already in range neither changes it, so the gather reads the array at the
  word itself.
-/
import proofs.«404348_j52080773431693_3_alg».proof.Proof.RefRead
import proofs.«404348_j52080773431693_3_alg».proof.Proof.Spec
import Idealize.ShloMosaic.Lib.Pipeline.Value
import Idealize.ShloMosaic.Lib.ValueIdx
import Idealize.ShloMosaic.Lib.StableHlo.Predicate

noncomputable section

namespace Cert.EditRef

open Idealize.ShloMosaic Idealize.ShloMosaic.ValueIdx Cert.ReferenceIdeal Cert.ReferenceIdeal.Gen Cert.ReferenceIdeal.ReadP Cert.EditSpec

variable {F : FTy → Type} [FloatOps F]

/-- A word below 128 is not negative as a signed word, so a select on "it is negative" returns it. -/
theorem select_neg_small {w y : BitVec 32} (h : w.toNat < 128) :
    Scalar.select (IntOp.cmpi .slt w 0#32) y w = w := by
  have hne : ¬ IntOp.cmpi .slt w 0#32 = 1#1 := by
    rw [StableHlo.Predicate.slt_iff_toNat (by omega) (by decide)]
    exact Nat.not_lt_zero _
  rw [eq_zero_of_ne_one hne, select_zero]

/-- The wrapped column of i_idx read at row k: the word itself. -/
theorem colI_apply (x6 : (⟨S8192, .i32⟩ : BufTy).Contents (Elt F)) (k : Fin 8192) (u : Fin 1)
    (h : (x6 (ix1 k)).toNat < 128) :
    val_main_v5 (F := F) x6 (ix2 k u) = x6 (ix1 k) := by
  rw [val_main_v5_apply, val_main_v4_apply, val_main_v1_apply, val_main_v0_apply, val_main_c_apply]
  have hi : idx_main_v5 (ix2 k u) = ix1 k := by
    funext a; match a with | ⟨0, _⟩ => rfl
  rw [hi]
  exact select_neg_small h

/-- The wrapped column of j_idx read at row k: the word itself. -/
theorem colJ_apply (x7 : (⟨S8192, .i32⟩ : BufTy).Contents (Elt F)) (k : Fin 8192) (u : Fin 1)
    (h : (x7 (ix1 k)).toNat < 128) :
    val_main_v12 (F := F) x7 (ix2 k u) = x7 (ix1 k) := by
  rw [val_main_v12_apply, val_main_v11_apply, val_main_v8_apply, val_main_v7_apply, val_main_c_1_apply]
  have hi : idx_main_v12 (ix2 k u) = ix1 k := by
    funext a; match a with | ⟨0, _⟩ => rfl
  rw [hi]
  exact select_neg_small h

/-- The second wrapped column of i_idx (the edge gather's) read at row k. -/
theorem colI2_apply (x6 : (⟨S8192, .i32⟩ : BufTy).Contents (Elt F)) (k : Fin 8192) (u : Fin 1)
    (h : (x6 (ix1 k)).toNat < 128) :
    val_main_v24 (F := F) x6 (ix2 k u) = x6 (ix1 k) := by
  rw [val_main_v24_apply, val_main_v18_apply, val_main_v15_apply, val_main_v14_apply, val_main_c_3_apply]
  have hi : idx_main_v24 (ix2 k u) = ix1 k := by
    funext a; match a with | ⟨0, _⟩ => rfl
  rw [hi]
  exact select_neg_small h

/-- The second wrapped column of j_idx (the edge gather's) read at row k. -/
theorem colJ2_apply (x7 : (⟨S8192, .i32⟩ : BufTy).Contents (Elt F)) (k : Fin 8192) (u : Fin 1)
    (h : (x7 (ix1 k)).toNat < 128) :
    val_main_v25 (F := F) x7 (ix2 k u) = x7 (ix1 k) := by
  rw [val_main_v25_apply, val_main_v23_apply, val_main_v20_apply, val_main_v19_apply, val_main_c_5_apply]
  have hi : idx_main_v25 (ix2 k u) = ix1 k := by
    funext a; match a with | ⟨0, _⟩ => rfl
  rw [hi]
  exact select_neg_small h

section Joined
variable {α : Type}

/-- Three pieces of widths 128, 128, 32 joined along axis 2, read in the first piece's band. -/
theorem cat3_band1 (y₁ y₂ : S32x8192x128.Idx → α) (y₃ : S32x8192x32.Idx → α)
    (h : Shape.Concatenates [S32x8192x128, S32x8192x128, S32x8192x32] S32x8192x288 2)
    (b : Fin 32) (k : Fin 8192) (d : Fin 128) :
    concatenate S32x8192x288 2 [⟨S32x8192x128, y₁⟩, ⟨S32x8192x128, y₂⟩, ⟨S32x8192x32, y₃⟩] h (ix3 b k (band1 d))
      = y₁ (ix3 b k d) := by
  refine concatenate_apply_piece (t := S32x8192x288) 2
    [⟨S32x8192x128, y₁⟩, ⟨S32x8192x128, y₂⟩, ⟨S32x8192x32, y₃⟩] h (ix3 b k (band1 d)) 0 ?_ S32x8192x128 y₁ rfl rfl 0 rfl
    (ix3 b k d) ?_ ?_
  · show (0 : Nat) < 3; omega
  · intro c hc
    match c with
    | ⟨0, _⟩ => rfl
    | ⟨1, _⟩ => rfl
    | ⟨2, _⟩ => exact absurd rfl hc
  · exact Nat.zero_add _

/-- … in the second piece's band, 128 columns on. -/
theorem cat3_band2 (y₁ y₂ : S32x8192x128.Idx → α) (y₃ : S32x8192x32.Idx → α)
    (h : Shape.Concatenates [S32x8192x128, S32x8192x128, S32x8192x32] S32x8192x288 2)
    (b : Fin 32) (k : Fin 8192) (d : Fin 128) :
    concatenate S32x8192x288 2 [⟨S32x8192x128, y₁⟩, ⟨S32x8192x128, y₂⟩, ⟨S32x8192x32, y₃⟩] h (ix3 b k (band2 d))
      = y₂ (ix3 b k d) := by
  refine concatenate_apply_piece (t := S32x8192x288) 2
    [⟨S32x8192x128, y₁⟩, ⟨S32x8192x128, y₂⟩, ⟨S32x8192x32, y₃⟩] h (ix3 b k (band2 d)) 1 ?_ S32x8192x128 y₂ rfl rfl 128 rfl
    (ix3 b k d) ?_ ?_
  · show (1 : Nat) < 3; omega
  · intro c hc
    match c with
    | ⟨0, _⟩ => rfl
    | ⟨1, _⟩ => rfl
    | ⟨2, _⟩ => exact absurd rfl hc
  · rfl

/-- … in the third piece's band, 256 columns on. -/
theorem cat3_band3 (y₁ y₂ : S32x8192x128.Idx → α) (y₃ : S32x8192x32.Idx → α)
    (h : Shape.Concatenates [S32x8192x128, S32x8192x128, S32x8192x32] S32x8192x288 2)
    (b : Fin 32) (k : Fin 8192) (e : Fin 32) :
    concatenate S32x8192x288 2 [⟨S32x8192x128, y₁⟩, ⟨S32x8192x128, y₂⟩, ⟨S32x8192x32, y₃⟩] h (ix3 b k (band3 e))
      = y₃ (ix3 b k e) := by
  refine concatenate_apply_piece (t := S32x8192x288) 2
    [⟨S32x8192x128, y₁⟩, ⟨S32x8192x128, y₂⟩, ⟨S32x8192x32, y₃⟩] h (ix3 b k (band3 e)) 2 ?_ S32x8192x32 y₃ rfl rfl 256 rfl
    (ix3 b k e) ?_ ?_
  · show (2 : Nat) < 3; omega
  · intro c hc
    match c with
    | ⟨0, _⟩ => rfl
    | ⟨1, _⟩ => rfl
    | ⟨2, _⟩ => exact absurd rfl hc
  · rfl

/-- Two columns joined side by side, read in column 0: the first. -/
theorem cat2_col0 (y₁ y₂ : S8192x1.Idx → α) (h : Shape.Concatenates [S8192x1, S8192x1] S8192x2 1) (k : Fin 8192) :
    concatenate S8192x2 1 [⟨S8192x1, y₁⟩, ⟨S8192x1, y₂⟩] h (ix2 k 0) = y₁ (ix2 k 0) := by
  refine concatenate_pair_apply_left (t := S8192x2) (s₁ := S8192x1) (s₂ := S8192x1) 1 y₁ y₂ h (ix2 k 0) rfl (ix2 k 0) ?_
  intro c
  match c with
  | ⟨0, _⟩ => rfl
  | ⟨1, _⟩ => rfl

/-- … read in column 1: the second. -/
theorem cat2_col1 (y₁ y₂ : S8192x1.Idx → α) (h : Shape.Concatenates [S8192x1, S8192x1] S8192x2 1) (k : Fin 8192) :
    concatenate S8192x2 1 [⟨S8192x1, y₁⟩, ⟨S8192x1, y₂⟩] h (ix2 k 1) = y₂ (ix2 k 0) := by
  refine concatenate_pair_apply_right (t := S8192x2) (s₁ := S8192x1) (s₂ := S8192x1) 1 y₁ y₂ h (ix2 k 1) rfl rfl (ix2 k 0) ?_ rfl
  intro c hc
  match c with
  | ⟨0, _⟩ => rfl
  | ⟨1, _⟩ => exact absurd rfl hc

end Joined

/-- The node gathers' dimension numbers. -/
abbrev GN := gather_S32x128x128_S8192x1_S32x8192x128_02_1_n_n_1_1_321128
/-- The edge gather's dimension numbers. -/
abbrev GE := gather_S32x128x128x32_S8192x2_S32x8192x32_02_12_n_n_12_1_321132

/-- Node i's features: the gather at (b, k, d) reads the node features at (b, i_idx[k], d). -/
theorem nodesI_apply (x0 : (⟨S32x128x128, .f32⟩ : BufTy).Contents (Elt F)) (x6 : (⟨S8192, .i32⟩ : BufTy).Contents (Elt F))
    (b : Fin 32) (k : Fin 8192) (d : Fin 128) (h6 : (x6 (ix1 k)).toNat < 128) :
    val_main_v6 (F := F) x0 x6 (ix3 b k d) = x0 (ix3 b (node (x6 (ix1 k))) d) := by
  unfold val_main_v6 Host.gather
  congr 1
  funext a
  refine Fin.ext ?_
  match a with
  | ⟨0, _⟩ =>
    -- axis 0 is an offset axis: no start, the result's coordinate 0
    show GN.start (ix3 b k d) (val_main_v5 (F := F) x6) 0 + GN.batchCoord (ix3 b k d) 0 + GN.offCoord (ix3 b k d) 0 = b.val
    unfold GatherDims.start GatherDims.batchCoord GatherDims.offCoord
    rw [dif_neg (by decide), dif_neg (by decide), dif_pos (by decide)]
    simp only [Nat.zero_add]
    rfl
  | ⟨1, _⟩ =>
    -- axis 1 is collapsed: the clamped start read off the column at row k
    show GN.start (ix3 b k d) (val_main_v5 (F := F) x6) 1 + GN.batchCoord (ix3 b k d) 1 + GN.offCoord (ix3 b k d) 1 = (node (x6 (ix1 k))).val
    unfold GatherDims.start GatherDims.batchCoord GatherDims.offCoord
    rw [dif_pos (by decide), dif_neg (by decide), dif_neg (by decide)]
    simp only [Nat.add_zero]
    have hsi : GN.siIdx (ix3 b k d) ⟨List.idxOf (1 : Fin 3) GN.startIndexMap, List.idxOf_lt_length_iff.2 (by decide)⟩ = ix2 k 0 := by
      funext a; refine Fin.ext ?_
      match a with
      | ⟨0, _⟩ => rfl
      | ⟨1, _⟩ => rfl
    rw [hsi, colI_apply x6 k 0 h6, StableHlo.Predicate.toInt_eq_toNat_of_lt (by omega), Int.toNat_natCast, node_val h6]
    show min _ (128 - 1) = _
    omega
  | ⟨2, _⟩ =>
    -- axis 2 is an offset axis: the result's coordinate 2
    show GN.start (ix3 b k d) (val_main_v5 (F := F) x6) 2 + GN.batchCoord (ix3 b k d) 2 + GN.offCoord (ix3 b k d) 2 = d.val
    unfold GatherDims.start GatherDims.batchCoord GatherDims.offCoord
    rw [dif_neg (by decide), dif_neg (by decide), dif_pos (by decide)]
    simp only [Nat.zero_add]
    rfl

/-- Node j's features. -/
theorem nodesJ_apply (x0 : (⟨S32x128x128, .f32⟩ : BufTy).Contents (Elt F)) (x7 : (⟨S8192, .i32⟩ : BufTy).Contents (Elt F))
    (b : Fin 32) (k : Fin 8192) (d : Fin 128) (h7 : (x7 (ix1 k)).toNat < 128) :
    val_main_v13 (F := F) x0 x7 (ix3 b k d) = x0 (ix3 b (node (x7 (ix1 k))) d) := by
  unfold val_main_v13 Host.gather
  congr 1
  funext a
  refine Fin.ext ?_
  match a with
  | ⟨0, _⟩ =>
    -- axis 0 is an offset axis: no start, the result's coordinate 0
    show GN.start (ix3 b k d) (val_main_v12 (F := F) x7) 0 + GN.batchCoord (ix3 b k d) 0 + GN.offCoord (ix3 b k d) 0 = b.val
    unfold GatherDims.start GatherDims.batchCoord GatherDims.offCoord
    rw [dif_neg (by decide), dif_neg (by decide), dif_pos (by decide)]
    simp only [Nat.zero_add]
    rfl
  | ⟨1, _⟩ =>
    -- axis 1 is collapsed: the clamped start read off the column at row k
    show GN.start (ix3 b k d) (val_main_v12 (F := F) x7) 1 + GN.batchCoord (ix3 b k d) 1 + GN.offCoord (ix3 b k d) 1 = (node (x7 (ix1 k))).val
    unfold GatherDims.start GatherDims.batchCoord GatherDims.offCoord
    rw [dif_pos (by decide), dif_neg (by decide), dif_neg (by decide)]
    simp only [Nat.add_zero]
    have hsi : GN.siIdx (ix3 b k d) ⟨List.idxOf (1 : Fin 3) GN.startIndexMap, List.idxOf_lt_length_iff.2 (by decide)⟩ = ix2 k 0 := by
      funext a; refine Fin.ext ?_
      match a with
      | ⟨0, _⟩ => rfl
      | ⟨1, _⟩ => rfl
    rw [hsi, colJ_apply x7 k 0 h7, StableHlo.Predicate.toInt_eq_toNat_of_lt (by omega), Int.toNat_natCast, node_val h7]
    show min _ (128 - 1) = _
    omega
  | ⟨2, _⟩ =>
    -- axis 2 is an offset axis: the result's coordinate 2
    show GN.start (ix3 b k d) (val_main_v12 (F := F) x7) 2 + GN.batchCoord (ix3 b k d) 2 + GN.offCoord (ix3 b k d) 2 = d.val
    unfold GatherDims.start GatherDims.batchCoord GatherDims.offCoord
    rw [dif_neg (by decide), dif_neg (by decide), dif_pos (by decide)]
    simp only [Nat.zero_add]
    rfl

/-- The two-column start indices at (k, 0): the i_idx column. -/
theorem starts_apply_0 (x6 x7 : (⟨S8192, .i32⟩ : BufTy).Contents (Elt F)) (k : Fin 8192) (h6 : (x6 (ix1 k)).toNat < 128) :
    val_main_v26 (F := F) x6 x7 (ix2 k 0) = x6 (ix1 k) := by
  unfold val_main_v26
  exact (cat2_col0 _ _ _ k).trans (colI2_apply x6 k 0 h6)

/-- The two-column start indices at (k, 1): the j_idx column. -/
theorem starts_apply_1 (x6 x7 : (⟨S8192, .i32⟩ : BufTy).Contents (Elt F)) (k : Fin 8192) (h7 : (x7 (ix1 k)).toNat < 128) :
    val_main_v26 (F := F) x6 x7 (ix2 k 1) = x7 (ix1 k) := by
  unfold val_main_v26
  exact (cat2_col1 _ _ _ k).trans (colJ2_apply x7 k 0 h7)

/-- The edge's features: the gather at (b, k, e) reads the edge features at (b, i_idx[k], j_idx[k], e). -/
theorem edgeIJ_apply (x1 : (⟨S32x128x128x32, .f32⟩ : BufTy).Contents (Elt F)) (x6 x7 : (⟨S8192, .i32⟩ : BufTy).Contents (Elt F))
    (b : Fin 32) (k : Fin 8192) (e : Fin 32) (h6 : (x6 (ix1 k)).toNat < 128) (h7 : (x7 (ix1 k)).toNat < 128) :
    val_main_v27 (F := F) x1 x6 x7 (ix3 b k e) = x1 (ix4 b (node (x6 (ix1 k))) (node (x7 (ix1 k))) e) := by
  unfold val_main_v27 Host.gather
  congr 1
  funext a
  refine Fin.ext ?_
  match a with
  | ⟨0, _⟩ =>
    show GE.start (ix3 b k e) (val_main_v26 (F := F) x6 x7) 0 + GE.batchCoord (ix3 b k e) 0 + GE.offCoord (ix3 b k e) 0 = b.val
    unfold GatherDims.start GatherDims.batchCoord GatherDims.offCoord
    rw [dif_neg (by decide), dif_neg (by decide), dif_pos (by decide)]
    simp only [Nat.zero_add]
    rfl
  | ⟨1, _⟩ =>
    show GE.start (ix3 b k e) (val_main_v26 (F := F) x6 x7) 1 + GE.batchCoord (ix3 b k e) 1 + GE.offCoord (ix3 b k e) 1 = (node (x6 (ix1 k))).val
    unfold GatherDims.start GatherDims.batchCoord GatherDims.offCoord
    rw [dif_pos (by decide), dif_neg (by decide), dif_neg (by decide)]
    simp only [Nat.add_zero]
    have hsi : GE.siIdx (ix3 b k e) ⟨List.idxOf (1 : Fin 4) GE.startIndexMap, List.idxOf_lt_length_iff.2 (by decide)⟩ = ix2 k 0 := by
      funext a; refine Fin.ext ?_
      match a with
      | ⟨0, _⟩ => rfl
      | ⟨1, _⟩ => rfl
    rw [hsi, starts_apply_0 x6 x7 k h6, StableHlo.Predicate.toInt_eq_toNat_of_lt (by omega), Int.toNat_natCast, node_val h6]
    show min _ (128 - 1) = _
    omega
  | ⟨2, _⟩ =>
    show GE.start (ix3 b k e) (val_main_v26 (F := F) x6 x7) 2 + GE.batchCoord (ix3 b k e) 2 + GE.offCoord (ix3 b k e) 2 = (node (x7 (ix1 k))).val
    unfold GatherDims.start GatherDims.batchCoord GatherDims.offCoord
    rw [dif_pos (by decide), dif_neg (by decide), dif_neg (by decide)]
    simp only [Nat.add_zero]
    have hsi : GE.siIdx (ix3 b k e) ⟨List.idxOf (2 : Fin 4) GE.startIndexMap, List.idxOf_lt_length_iff.2 (by decide)⟩ = ix2 k 1 := by
      funext a; refine Fin.ext ?_
      match a with
      | ⟨0, _⟩ => rfl
      | ⟨1, _⟩ => rfl
    rw [hsi, starts_apply_1 x6 x7 k h7, StableHlo.Predicate.toInt_eq_toNat_of_lt (by omega), Int.toNat_natCast, node_val h7]
    show min _ (128 - 1) = _
    omega
  | ⟨3, _⟩ =>
    show GE.start (ix3 b k e) (val_main_v26 (F := F) x6 x7) 3 + GE.batchCoord (ix3 b k e) 3 + GE.offCoord (ix3 b k e) 3 = e.val
    unfold GatherDims.start GatherDims.batchCoord GatherDims.offCoord
    rw [dif_neg (by decide), dif_neg (by decide), dif_pos (by decide)]
    simp only [Nat.zero_add]
    rfl

/-- The joined feature row, first band: node i's features. -/
theorem feat_band1 (x0 : (⟨S32x128x128, .f32⟩ : BufTy).Contents (Elt F)) (x1 : (⟨S32x128x128x32, .f32⟩ : BufTy).Contents (Elt F)) (x6 x7 : (⟨S8192, .i32⟩ : BufTy).Contents (Elt F))
    (b : Fin 32) (k : Fin 8192) (d : Fin 128) :
    val_main_v28 (F := F) x0 x1 x6 x7 (ix3 b k (band1 d)) = val_main_v6 (F := F) x0 x6 (ix3 b k d) := by
  unfold val_main_v28
  exact cat3_band1 _ _ _ _ b k d

/-- The joined feature row, second band: node j's features. -/
theorem feat_band2 (x0 : (⟨S32x128x128, .f32⟩ : BufTy).Contents (Elt F)) (x1 : (⟨S32x128x128x32, .f32⟩ : BufTy).Contents (Elt F)) (x6 x7 : (⟨S8192, .i32⟩ : BufTy).Contents (Elt F))
    (b : Fin 32) (k : Fin 8192) (d : Fin 128) :
    val_main_v28 (F := F) x0 x1 x6 x7 (ix3 b k (band2 d)) = val_main_v13 (F := F) x0 x7 (ix3 b k d) := by
  unfold val_main_v28
  exact cat3_band2 _ _ _ _ b k d

/-- The joined feature row, third band: the edge's features. -/
theorem feat_band3 (x0 : (⟨S32x128x128, .f32⟩ : BufTy).Contents (Elt F)) (x1 : (⟨S32x128x128x32, .f32⟩ : BufTy).Contents (Elt F)) (x6 x7 : (⟨S8192, .i32⟩ : BufTy).Contents (Elt F))
    (b : Fin 32) (k : Fin 8192) (e : Fin 32) :
    val_main_v28 (F := F) x0 x1 x6 x7 (ix3 b k (band3 e)) = val_main_v27 (F := F) x1 x6 x7 (ix3 b k e) := by
  unfold val_main_v28
  exact cat3_band3 _ _ _ _ b k e

end Cert.EditRef

end
-- ==== Proof.RefTake.lean ====
/-
  The reference's choice of one channel per edit, read at an index.

  Of the four logits of edit k the reference keeps channel b_idx[k]: it wraps a negative word by adding 4, tests the
  result against 0 and 3, gathers along the channel axis, and fills with a not-a-number word where the test fails.
  For a word in 0..3 the wrap leaves it alone and the test passes, so the kept value is the logit at that channel.
-/
import proofs.«404348_j52080773431693_3_alg».proof.Proof.RefRead
import proofs.«404348_j52080773431693_3_alg».proof.Proof.Spec
import Idealize.ShloMosaic.Lib.Pipeline.Value
import Idealize.ShloMosaic.Lib.ValueIdx
import Idealize.ShloMosaic.Lib.ReduceAll
import Idealize.ShloMosaic.Lib.StableHlo.Predicate

noncomputable section

namespace Cert.EditRef

open Idealize.ShloMosaic Idealize.ShloMosaic.ValueIdx Cert.ReferenceIdeal Cert.ReferenceIdeal.Gen Cert.ReferenceIdeal.ReadP Cert.EditSpec
open Idealize.ShloMosaic.StableHlo.Predicate

variable {F : FTy → Type} [FloatOps F]

/-- A word in 0..3 is not negative, so the wrap keeps it. -/
private theorem wrap_small (w : BitVec 32) (h : w.toNat < 4) :
    Scalar.select (IntOp.cmpi .slt w 0#32) (IntOp.addi w 4#32) w = w := by
  have h0 : IntOp.cmpi .slt w 0#32 = 0#1 := eq_zero_of_ne_one (fun e => by
    have := (slt_iff_toNat (a := w) (b := 0#32) (by omega) (by decide)).1 e
    simp at this)
  rw [h0, select_zero]

/-- A word in 0..3 passes the range test. -/
private theorem test_small (w : BitVec 32) (h : w.toNat < 4) :
    IntOp.andi (IntOp.cmpi .sge w 0#32) (IntOp.cmpi .sle w 3#32) = 1#1 := by
  rw [IntOp.andi_eq_one]
  refine ⟨(sge_iff_toNat (by omega) (by decide)).2 (by simp), (sle_iff_toNat (by omega) (by decide)).2 ?_⟩
  show w.toNat ≤ 3
  omega

/-- A left fold by and from 1 over words that are all 1 is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a (by simp)⟩) (fun n hn => hl n (List.mem_cons_of_mem _ hn))

/-- The channel words broadcast over the batches read the word of edit k. -/
private theorem v34_read (x8 : (⟨S8192, .i32⟩ : BufTy).Contents (Elt F)) (b : Fin 32) (k : Fin 8192) (c : Fin 1) :
    val_main_v34 (F := F) x8 (ix3 b k c) = x8 (ix1 k) := by
  rw [val_main_v34_apply, val_main_v33_apply]
  congr 1
  funext a
  match a with
  | ⟨0, _⟩ => rfl

/-- The wrapped channel word of edit k is the word itself. -/
private theorem v4_read (x8 : (⟨S8192, .i32⟩ : BufTy).Contents (Elt F)) (b : Fin 32) (k : Fin 8192) (c : Fin 1) (h8 : (x8 (ix1 k)).toNat < 4) :
    val_main_call0_v4 (F := F) x8 (ix3 b k c) = x8 (ix1 k) := by
  rw [val_main_call0_v4_apply, val_main_call0_v1_apply, val_main_call0_v3_apply, v34_read, val_main_call0_v0_apply,
    val_main_call0_c_apply, val_main_call0_v2_apply, val_main_call0_c_0_apply]
  exact wrap_small _ h8

/-- The same after the reshape to four axes. -/
private theorem v5_read (x8 : (⟨S8192, .i32⟩ : BufTy).Contents (Elt F)) (b : Fin 32) (k : Fin 8192) (c d : Fin 1) (h8 : (x8 (ix1 k)).toNat < 4) :
    val_main_call0_v5 (F := F) x8 (ix4 b k c d) = x8 (ix1 k) := by
  rw [val_main_call0_v5_apply]
  have e : idx_main_call0_v5 (ix4 b k c d) = ix3 b k (0 : Fin 1) := by
    funext a
    match a with
    | ⟨0, _⟩ => exact Fin.ext (by show (((b.val * 8192 + k.val) * 1 + c.val) * 1 + d.val) / 8192 = b.val; omega)
    | ⟨1, _⟩ => exact Fin.ext (by show (((b.val * 8192 + k.val) * 1 + c.val) * 1 + d.val) / 1 % 8192 = k.val; omega)
    | ⟨2, _⟩ => rfl
  rw [e, v4_read _ _ _ _ h8]

/-- The range test passes at every index of edit k. -/
private theorem v11_read (x8 : (⟨S8192, .i32⟩ : BufTy).Contents (Elt F)) (b : Fin 32) (k : Fin 8192) (c d : Fin 1) (h8 : (x8 (ix1 k)).toNat < 4) :
    val_main_call0_v11 (F := F) x8 (ix4 b k c d) = 1#1 := by
  rw [val_main_call0_v11_apply, val_main_call0_v7_apply, val_main_call0_v10_apply, v5_read _ _ _ _ _ h8, val_main_call0_v6_apply,
    val_main_call0_c_2_apply, val_main_call0_v9_apply, val_main_call0_v8_apply, val_main_call0_c_1_apply]
  exact test_small _ h8

local notation "G32" => gather_S32x8192x4_S32x8192x1x1_S32x8192x1_n_2_01_01_2_3_111

/-- The test reduced over its last, one-element axis is still 1 at edit k. -/
private theorem v12_read (x8 : (⟨S8192, .i32⟩ : BufTy).Contents (Elt F)) (b : Fin 32) (k : Fin 8192) (h8 : (x8 (ix1 k)).toNat < 4) :
    val_main_call0_v12 (F := F) x8 (ix3 b k (0 : Fin 1)) = 1#1 := by
  unfold val_main_call0_v12
  rw [Host.reduce_eq_foldl]
  refine foldl_andi_one _ _ _ rfl ?_
  intro i hi
  have hd : reducesTo_S32x8192x1x1_S32x8192x1_d3.drop i = ix3 b k (0 : Fin 1) := of_decide_eq_true (List.mem_filter.1 hi).2
  have hk : i 1 = k := Fin.ext (by
    rw [← Shape.ReducesTo.drop_apply_val_of_eq reducesTo_S32x8192x1x1_S32x8192x1_d3 i 1 1, hd])
  rw [eq_ix4 i, hk]
  exact v11_read x8 _ k _ _ h8

/-- A gather with these dimension numbers reads, at (b, k, 0), the operand at (b, k, c), c the start word of (b, k) when
    that word is in 0..3: axes 0 and 1 are batch axes and carry b and k, axis 2 is collapsed and starts at the word
    clamped into 0..3, which is the word. -/
private theorem gather_read {α : Type} (x : S32x8192x4.Idx → α) (idx : IVec S32x8192x1x1 32) (b : Fin 32) (k : Fin 8192) (w : BitVec 32)
    (hw : idx (ix4 b k (0 : Fin 1) (0 : Fin 1)) = w) (h8 : w.toNat < 4) :
    Host.gather G32 x idx (ix3 b k (0 : Fin 1)) = x (ix3 b k (chan w)) := by
  have hb0 : (0 : Fin 3) ∈ (G32).operandBatchingDims := by decide
  have hb1 : (1 : Fin 3) ∈ (G32).operandBatchingDims := by decide
  have h0 : (G32).start (ix3 b k (0 : Fin 1)) idx (0 : Fin 3) + (G32).batchCoord (ix3 b k (0 : Fin 1)) (0 : Fin 3)
      + (G32).offCoord (ix3 b k (0 : Fin 1)) (0 : Fin 3) = b.val := by
    rw [GatherDims.start_batching _ _ _ _ hb0,
      GatherDims.offCoord_eq_zero _ _ _ (fun h => ((GatherDims.mem_sKept _ _).mp h).2 hb0)]
    simp only [Nat.zero_add, Nat.add_zero]
    rfl
  have h1 : (G32).start (ix3 b k (0 : Fin 1)) idx (1 : Fin 3) + (G32).batchCoord (ix3 b k (0 : Fin 1)) (1 : Fin 3)
      + (G32).offCoord (ix3 b k (0 : Fin 1)) (1 : Fin 3) = k.val := by
    rw [GatherDims.start_batching _ _ _ _ hb1,
      GatherDims.offCoord_eq_zero _ _ _ (fun h => ((GatherDims.mem_sKept _ _).mp h).2 hb1)]
    simp only [Nat.zero_add, Nat.add_zero]
    rfl
  have hb2 : (2 : Fin 3) ∉ (G32).operandBatchingDims := by decide
  have hc2 : (2 : Fin 3) ∈ (G32).collapsedSliceDims := by decide
  have hm2 : (2 : Fin 3) ∈ (G32).startIndexMap := by decide
  have h2 : (G32).start (ix3 b k (0 : Fin 1)) idx (2 : Fin 3) + (G32).batchCoord (ix3 b k (0 : Fin 1)) (2 : Fin 3)
      + (G32).offCoord (ix3 b k (0 : Fin 1)) (2 : Fin 3) = (chan w).val := by
    rw [GatherDims.batchCoord_eq_zero _ _ _ hb2,
      GatherDims.offCoord_eq_zero _ _ _ (fun h => ((GatherDims.mem_sKept _ _).mp h).1 hc2)]
    simp only [Nat.add_zero]
    unfold GatherDims.start
    rw [dif_pos hm2]
    have hsi : (G32).siIdx (ix3 b k (0 : Fin 1)) ⟨List.idxOf (2 : Fin 3) (G32).startIndexMap,
        List.idxOf_lt_length_iff.2 hm2⟩ = ix4 b k (0 : Fin 1) (0 : Fin 1) := by
      funext c; refine Fin.ext ?_
      match c with
      | ⟨0, _⟩ => rfl
      | ⟨1, _⟩ => rfl
      | ⟨2, _⟩ => rfl
      | ⟨3, _⟩ => rfl
    rw [hsi, hw, toInt_eq_toNat_of_lt (a := w) (by omega)]
    show min (Int.toNat (w.toNat : Int)) (4 - 1) = (chan w).val
    rw [chan_val h8, Int.toNat_natCast]
    omega
  unfold Host.gather
  congr 1
  funext a
  refine Fin.ext ?_
  match a with
  | ⟨0, _⟩ => exact h0
  | ⟨1, _⟩ => exact h1
  | ⟨2, _⟩ => exact h2

/-- The gather along the channel axis reads the logits of edit k at the channel its word names. -/
private theorem v13_read (x0 : (⟨S32x128x128, .f32⟩ : BufTy).Contents (Elt F)) (x1 : (⟨S32x128x128x32, .f32⟩ : BufTy).Contents (Elt F)) (x2 : (⟨S288x4, .f32⟩ : BufTy).Contents (Elt F))
    (x3 : (⟨S4, .f32⟩ : BufTy).Contents (Elt F)) (x6 x7 x8 : (⟨S8192, .i32⟩ : BufTy).Contents (Elt F)) (b : Fin 32) (k : Fin 8192) (h8 : (x8 (ix1 k)).toNat < 4) :
    val_main_call0_v13 (F := F) x0 x1 x2 x3 x6 x7 x8 (ix3 b k (0 : Fin 1))
      = val_main_v32 (F := F) x0 x1 x2 x3 x6 x7 (ix3 b k (chan (x8 (ix1 k)))) := by
  unfold val_main_call0_v13
  exact gather_read _ _ b k _ (v5_read x8 b k 0 0 h8) h8

/-- The kept logit of edit k in batch b is the logit at channel b_idx[k]. -/
theorem take_apply (x0 : (⟨S32x128x128, .f32⟩ : BufTy).Contents (Elt F)) (x1 : (⟨S32x128x128x32, .f32⟩ : BufTy).Contents (Elt F)) (x2 : (⟨S288x4, .f32⟩ : BufTy).Contents (Elt F))
    (x3 : (⟨S4, .f32⟩ : BufTy).Contents (Elt F)) (x6 x7 x8 : (⟨S8192, .i32⟩ : BufTy).Contents (Elt F)) (b : Fin 32) (k : Fin 8192) (h8 : (x8 (ix1 k)).toNat < 4) :
    val_main_v35 (F := F) x0 x1 x2 x3 x6 x7 x8 (ix3 b k (0 : Fin 1))
      = val_main_v32 (F := F) x0 x1 x2 x3 x6 x7 (ix3 b k (chan (x8 (ix1 k)))) := by
  rw [val_main_v35_apply, v12_read x8 b k h8, select_one, v13_read x0 x1 x2 x3 x6 x7 x8 b k h8]

end Cert.EditRef

end
-- ==== Proof.RefSel.lean ====
/-
  The reference's selected logits are the specification's array.

  Read at (b, k): where feas[b,k] is set the reference's value is the kept channel of the product of the joined
  feature row with the weight matrix, plus the bias; the product's sum over the 288 feature rows splits into the
  three bands (node i, node j, the edge), each band's features being what the gathers read. Elsewhere it is the
  minus-infinity word.
-/
import proofs.«404348_j52080773431693_3_alg».proof.Proof.RefGather
import proofs.«404348_j52080773431693_3_alg».proof.Proof.RefTake

noncomputable section

namespace Cert.EditRef

open Idealize.ShloMosaic Idealize.ShloMosaic.ValueIdx Cert.ReferenceIdeal Cert.ReferenceIdeal.Gen Cert.ReferenceIdeal.ReadP Cert.EditSpec

/-- The product's left index at (b, k, c), feature row r, is (b, k, r). -/
theorem lidx_eq (b : Fin 32) (k : Fin 8192) (c : Fin 4) (r : Fin 288) :
    lidx_main_v29 (ix3 b k c) r = ix3 b k r :=
  funext fun a => by
    match a with
    | ⟨0, _⟩ => rfl
    | ⟨1, _⟩ => rfl
    | ⟨2, _⟩ => rfl

/-- The product's right index at (b, k, c), feature row r, is (r, c). -/
theorem ridx_eq (b : Fin 32) (k : Fin 8192) (c : Fin 4) (r : Fin 288) :
    ridx_main_v29 (ix3 b k c) r = ix2 r c :=
  funext fun a => by
    match a with
    | ⟨0, _⟩ => rfl
    | ⟨1, _⟩ => rfl

/-- The bias broadcast at (b, k, c) reads the bias at c. -/
theorem bias_idx_eq (b : Fin 32) (k : Fin 8192) (c : Fin 4) :
    idx_main_v30 (idx_main_v31 (ix3 b k c)) = ix1 c :=
  funext fun a => by
    match a with
    | ⟨0, _⟩ => rfl

/-- The reshape that drops the unit axis reads (b, k) at (b, k, 0). -/
theorem idx36_eq (b : Fin 32) (k : Fin 8192) :
    idx_main_v36 (ix2 b k) = ix3 b k (0 : Fin 1) :=
  funext fun a => by
    match a with
    | ⟨0, _⟩ => exact Fin.ext (by show (b.val * 8192 + k.val) / 8192 = b.val; have := k.isLt; omega)
    | ⟨1, _⟩ => exact Fin.ext (by show (b.val * 8192 + k.val) / 1 % 8192 = k.val; have := k.isLt; omega)
    | ⟨2, _⟩ => rfl

/-- The four logits of edit k in batch b, before a channel is chosen: at channel c, the specification's logit. -/
theorem logits_apply (x0 : (⟨S32x128x128, .f32⟩ : BufTy).Contents (Elt Ideal)) (x1 : (⟨S32x128x128x32, .f32⟩ : BufTy).Contents (Elt Ideal)) (x2 : (⟨S288x4, .f32⟩ : BufTy).Contents (Elt Ideal))
    (x3 : (⟨S4, .f32⟩ : BufTy).Contents (Elt Ideal)) (x6 x7 : (⟨S8192, .i32⟩ : BufTy).Contents (Elt Ideal)) (b : Fin 32) (k : Fin 8192) (c : Fin 4)
    (h6 : (x6 (ix1 k)).toNat < 128) (h7 : (x7 (ix1 k)).toNat < 128) :
    val_main_v32 (F := Ideal) x0 x1 x2 x3 x6 x7 (ix3 b k c)
      = logit x0 x1 x2 x3 b (node (x6 (ix1 k))) (node (x7 (ix1 k))) c := by
  rw [val_main_v32_apply, val_main_v29_apply, val_main_v31_apply, val_main_v30_apply, bias_idx_eq, sum_rows]
  simp only [lidx_eq, ridx_eq, feat_band1, feat_band2, feat_band3, nodesI_apply x0 x6 b k _ h6,
    nodesJ_apply x0 x7 b k _ h7, edgeIJ_apply x1 x6 x7 b k _ h6 h7]
  rfl

/-- With every index word in range, the reference's selected logits are `selArr` of the argument arrays. -/
theorem ref_sel (x0 : (⟨S32x128x128, .f32⟩ : BufTy).Contents (Elt Ideal)) (x1 : (⟨S32x128x128x32, .f32⟩ : BufTy).Contents (Elt Ideal)) (x2 : (⟨S288x4, .f32⟩ : BufTy).Contents (Elt Ideal))
    (x3 : (⟨S4, .f32⟩ : BufTy).Contents (Elt Ideal)) (x6 x7 x8 : (⟨S8192, .i32⟩ : BufTy).Contents (Elt Ideal)) (x9 : (⟨S32x8192, .i1⟩ : BufTy).Contents (Elt Ideal))
    (h6 : ∀ k : Fin 8192, (x6 (ix1 k)).toNat < 128) (h7 : ∀ k : Fin 8192, (x7 (ix1 k)).toNat < 128)
    (h8 : ∀ k : Fin 8192, (x8 (ix1 k)).toNat < 4) :
    val_main_v37 (F := Ideal) x0 x1 x2 x3 x6 x7 x8 x9 = selArr x0 x1 x2 x3 x6 x7 x8 x9 := by
  funext idx
  obtain ⟨b, k, rfl⟩ : ∃ (b : Fin 32) (k : Fin 8192), idx = ix2 b k := ⟨_, _, eq_ix2 (n0 := 32) (n1 := 8192) idx⟩
  rw [val_main_v37_apply, selArr_apply]
  unfold sel
  by_cases hf : x9 (ix2 b k) = 1#1
  · rw [if_pos hf, hf, select_one, val_main_v36_apply, idx36_eq, take_apply x0 x1 x2 x3 x6 x7 x8 b k (h8 k),
      logits_apply x0 x1 x2 x3 x6 x7 b k _ (h6 k) (h7 k)]
  · rw [if_neg hf, eq_zero_of_ne_one hf, select_zero, val_main_call1_v0_apply, val_main_cst_apply]
    rfl

end Cert.EditRef

end
-- ==== Proof.lean ====
/-
  The edit-selection head: a kernel that projects before it gathers, against a reference that gathers before it
  projects.

  For batch b and edit k with words i = i_idx[k], j = j_idx[k], c = b_idx[k], the reference joins node i's features,
  node j's features and edge (i, j)'s features into one row of 288, multiplies it with the 288 x 4 weight matrix, adds
  the bias and keeps channel c. The kernel multiplies every node row with the first two weight bands and every edge row
  with a block-diagonal copy of the third band once per batch, keeps those three tables across the batch's eight
  chunks, and picks rows i, j and column 4j + c out of them with one-hot products and 0/1 masks. Over the extended
  reals both are
      (sum over d of h_nodes[b,i,d] W[d,c]) + (sum over d of h_nodes[b,j,d] W[128+d,c])
        + (sum over e of h_edges[b,i,j,e] W[256+e,c]) + b_edit[c],
  kept where feas[b,k] is set and minus infinity elsewhere: a sum over the 288 rows is the sum of its three bands,
  a one-hot row picks one term of a sum, and products with zero vanish; only commutativity-free regrouping of sums and
  the laws of zero and one are used, so finiteness of the float inputs is never needed. The words must be in range
  (0 <= i, j < 128, 0 <= c < 4): outside it the reference clamps or wraps an index, or fills with not-a-number, where
  the kernel's one-hot row is all zeros; the precondition states the three ranges. The stop logit (the last column) is
  computed by the same host operations in both programs and is carried as one term.
-/
import proofs.«404348_j52080773431693_3_alg».proof.Defs
import proofs.«404348_j52080773431693_3_alg».proof.Proof.Gen.Kernel
import proofs.«404348_j52080773431693_3_alg».proof.Proof.Gen.Kernel.Frame
import proofs.«404348_j52080773431693_3_alg».proof.Proof.Gen.KernelIdeal
import proofs.«404348_j52080773431693_3_alg».proof.Proof.Gen.KernelIdeal.Frame
import proofs.«404348_j52080773431693_3_alg».proof.Proof.Gen.ReferenceIdeal
import proofs.«404348_j52080773431693_3_alg».proof.Proof.Gen.Pre_finite_inputs
import proofs.«404348_j52080773431693_3_alg».proof.Proof.PreDecode
import proofs.«404348_j52080773431693_3_alg».proof.Proof.KRun
import proofs.«404348_j52080773431693_3_alg».proof.Proof.RefSel
import Idealize.ShloMosaic.Adequacy
import Idealize.ShloMosaic.Init

noncomputable section

namespace Cert.Proof

open Idealize.ShloMosaic Idealize.ShloMosaic.TcCoe Idealize.ShloMosaic.ValueIdx Idealize.SL.Sem

/-- The stop column is one term on both sides: the reference's stages for it unfold to the kernel program's
    operations on the same four argument arrays. -/
theorem stop_eq (a0 : FVec Ideal Cert.KernelIdeal.S32x128x128 .f32) (a4 : FVec Ideal Cert.KernelIdeal.S128x1 .f32)
    (a5 : FVec Ideal Cert.KernelIdeal.S1 .f32) (a10 : IVec Cert.KernelIdeal.S32 1) :
    Cert.ReferenceIdeal.ReadP.val_main_v47 (F := Ideal) a0 a4 a5 a10 = Cert.EditKernel.stopCol (F := Ideal) a0 a4 a5 a10 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at the selected logits joined with the stop column. -/
theorem algebraic : Cert.algebraic_KernelIdeal_ReferenceIdeal := by
  intro m ρ m' ρ' hpre hagree
  have hr := fun c => Cert.EditPre.ranges (F := Ideal) _ _ _ _ _ _ _ _ _ _ _ (hpre c)
  have hI : ∀ (c : Dev Cert.KernelIdeal.nD) (k : Fin 8192), (Cert.EditKernel.aI m c (ix1 k)).toNat < 128 := fun c k => (hr c).1 k
  have hJ : ∀ (c : Dev Cert.KernelIdeal.nD) (k : Fin 8192), (Cert.EditKernel.aJ m c (ix1 k)).toNat < 128 := fun c k => (hr c).2.1 k
  have hC : ∀ (c : Dev Cert.KernelIdeal.nD) (k : Fin 8192), (Cert.EditKernel.aC m c (ix1 k)).toNat < 4 := fun c k => (hr c).2.2 k
  refine ⟨fun c => Cert.EditKernel.result m c, Cert.EditKernel.kernel_run m ρ hI hJ hC, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v48_eq]
  obtain ⟨e0, e1, e2, e3, e4, e5, e6, e7, e8, e9, e10⟩ := hagree c
  rw [e0, e1, e2, e3, e4, e5, e6, e7, e8, e9, e10]
  unfold Cert.ReferenceIdeal.ReadP.val_main_v48
  rw [Cert.EditRef.ref_sel _ _ _ _ _ _ _ _ (hI c) (hJ c) (hC c), stop_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
